-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x64x64x512 : Shape := ⟨4, ![32, 64, 64, 512]⟩
abbrev S_ : Shape := ⟨0, ![]⟩

class Facts : Prop where
  bcast_S_S32x64x64x512 : S_.BroadcastsInDim S32x64x64x512 (![] : Fin 0 → Fin S32x64x64x512.rank)
  reducesTo_S32x64x64x512_S_d0_1_2_3 : S32x64x64x512.ReducesTo [0, 1, 2, 3] S_
  h_S_ : 0 < S_.numel

variable [Facts]

def fn {F : FTy → Type} [FloatOps F] (main_arg0 : FVec F S32x64x64x512 .f32) : IVec S_ 1 :=
  let main_v0 : FVec F S32x64x64x512 .f32 := Host.absf main_arg0
  let main_cst : FVec F S_ .f32 := constant S_ .f32 0x7F800000#32
  let main_v1 : FVec F S32x64x64x512 .f32 := broadcastInDim S32x64x64x512 ![] bcast_S_S32x64x64x512 main_cst
  let main_v2 : IVec S32x64x64x512 1 := cmpf .olt main_v0 main_v1
  let main_c : IVec S_ 1 := constantI S_ 1 1#1
  let main_v3 : IVec S_ 1 := (fun x v => Host.reduce IntOp.andi x v reducesTo_S32x64x64x512_S_d0_1_2_3 h_S_) main_v2 main_c
  main_v3
-- ==== Kernel.lean ====
abbrev S32x64x64x512 : Shape := ⟨4, ![32, 64, 64, 512]⟩
abbrev S32x21x512 : Shape := ⟨3, ![32, 21, 512]⟩
abbrev S2x64x64x512 : Shape := ⟨4, ![2, 64, 64, 512]⟩
abbrev S2x21x512 : Shape := ⟨3, ![2, 21, 512]⟩
abbrev S1x64x64x512 : Shape := ⟨4, ![1, 64, 64, 512]⟩
abbrev S64x64x512 : Shape := ⟨3, ![64, 64, 512]⟩
abbrev S64x512 : Shape := ⟨2, ![64, 512]⟩
abbrev S512 : Shape := ⟨1, ![512]⟩
abbrev S1x512 : Shape := ⟨2, ![1, 512]⟩
abbrev S1x32x32x512 : Shape := ⟨4, ![1, 32, 32, 512]⟩
abbrev S32x32x512 : Shape := ⟨3, ![32, 32, 512]⟩
abbrev S32x512 : Shape := ⟨2, ![32, 512]⟩
abbrev S1x16x16x512 : Shape := ⟨4, ![1, 16, 16, 512]⟩
abbrev S16x16x512 : Shape := ⟨3, ![16, 16, 512]⟩
abbrev S16x512 : Shape := ⟨2, ![16, 512]⟩
abbrev S21x512 : Shape := ⟨2, ![21, 512]⟩
abbrev S1x21x512 : Shape := ⟨3, ![1, 21, 512]⟩
abbrev S32x10752 : Shape := ⟨2, ![32, 10752]⟩

abbrev nBuf : Space → Nat
  | .hbm => 3
  | .vmem => 4
  | .smem => 0
  | _ => 0

abbrev bufTy : (tb : Table) → Fin (tcTables nBuf tb) → BufTy
  | .hbm, ⟨0, _⟩ => ⟨S32x64x64x512, .f32⟩
  | .hbm, ⟨1, _⟩ => ⟨S32x21x512, .f32⟩
  | .hbm, ⟨2, _⟩ => ⟨S32x10752, .f32⟩
  | .local _ .vmem, ⟨0, _⟩ => ⟨S2x64x64x512, .f32⟩
  | .local _ .vmem, ⟨1, _⟩ => ⟨S2x64x64x512, .f32⟩
  | .local _ .vmem, ⟨2, _⟩ => ⟨S2x21x512, .f32⟩
  | .local _ .vmem, ⟨3, _⟩ => ⟨S2x21x512, .f32⟩
  | _, _ => ⟨S32x64x64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x64x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x21x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S2x64x64x512_S1x64x64x512_0_0_0_0 : ∀ a, (![0, 0, 0, 0] : Fin 4 → Nat) a + S1x64x64x512.size a ≤ S2x64x64x512.size a
  h_S1x64x64x512 : 0 < S1x64x64x512.numel
  shapeCasts_S1x64x64x512_S64x64x512 : S1x64x64x512.ShapeCasts S64x64x512
  reduces_S64x64x512_S64x512 : S64x64x512.Reduces [0] S64x512
  reduces_S64x512_S512 : S64x512.Reduces [0] S512
  shapeCasts_S512_S1x512 : S512.ShapeCasts S1x512
  inb_S2x64x64x512_S1x32x32x512_0_0_0_0 : ∀ a, (![0, 0, 0, 0] : Fin 4 → Nat) a + S1x32x32x512.size a ≤ S2x64x64x512.size a
  h_S1x32x32x512 : 0 < S1x32x32x512.numel
  shapeCasts_S1x32x32x512_S32x32x512 : S1x32x32x512.ShapeCasts S32x32x512
  reduces_S32x32x512_S32x512 : S32x32x512.Reduces [0] S32x512
  reduces_S32x512_S512 : S32x512.Reduces [0] S512
  inb_S2x64x64x512_S1x32x32x512_0_32_0_0 : ∀ a, (![0, 32, 0, 0] : Fin 4 → Nat) a + S1x32x32x512.size a ≤ S2x64x64x512.size a
  inb_S2x64x64x512_S1x32x32x512_0_0_32_0 : ∀ a, (![0, 0, 32, 0] : Fin 4 → Nat) a + S1x32x32x512.size a ≤ S2x64x64x512.size a
  inb_S2x64x64x512_S1x32x32x512_0_32_32_0 : ∀ a, (![0, 32, 32, 0] : Fin 4 → Nat) a + S1x32x32x512.size a ≤ S2x64x64x512.size a
  inb_S2x64x64x512_S1x16x16x512_0_0_0_0 : ∀ a, (![0, 0, 0, 0] : Fin 4 → Nat) a + S1x16x16x512.size a ≤ S2x64x64x512.size a
  h_S1x16x16x512 : 0 < S1x16x16x512.numel
  shapeCasts_S1x16x16x512_S16x16x512 : S1x16x16x512.ShapeCasts S16x16x512
  reduces_S16x16x512_S16x512 : S16x16x512.Reduces [0] S16x512
  reduces_S16x512_S512 : S16x512.Reduces [0] S512
  inb_S2x64x64x512_S1x16x16x512_0_16_0_0 : ∀ a, (![0, 16, 0, 0] : Fin 4 → Nat) a + S1x16x16x512.size a ≤ S2x64x64x512.size a
  inb_S2x64x64x512_S1x16x16x512_0_32_0_0 : ∀ a, (![0, 32, 0, 0] : Fin 4 → Nat) a + S1x16x16x512.size a ≤ S2x64x64x512.size a
  inb_S2x64x64x512_S1x16x16x512_0_48_0_0 : ∀ a, (![0, 48, 0, 0] : Fin 4 → Nat) a + S1x16x16x512.size a ≤ S2x64x64x512.size a
  inb_S2x64x64x512_S1x16x16x512_0_0_16_0 : ∀ a, (![0, 0, 16, 0] : Fin 4 → Nat) a + S1x16x16x512.size a ≤ S2x64x64x512.size a
  inb_S2x64x64x512_S1x16x16x512_0_16_16_0 : ∀ a, (![0, 16, 16, 0] : Fin 4 → Nat) a + S1x16x16x512.size a ≤ S2x64x64x512.size a
  inb_S2x64x64x512_S1x16x16x512_0_32_16_0 : ∀ a, (![0, 32, 16, 0] : Fin 4 → Nat) a + S1x16x16x512.size a ≤ S2x64x64x512.size a
  inb_S2x64x64x512_S1x16x16x512_0_48_16_0 : ∀ a, (![0, 48, 16, 0] : Fin 4 → Nat) a + S1x16x16x512.size a ≤ S2x64x64x512.size a
  inb_S2x64x64x512_S1x16x16x512_0_0_32_0 : ∀ a, (![0, 0, 32, 0] : Fin 4 → Nat) a + S1x16x16x512.size a ≤ S2x64x64x512.size a
  inb_S2x64x64x512_S1x16x16x512_0_16_32_0 : ∀ a, (![0, 16, 32, 0] : Fin 4 → Nat) a + S1x16x16x512.size a ≤ S2x64x64x512.size a
  inb_S2x64x64x512_S1x16x16x512_0_32_32_0 : ∀ a, (![0, 32, 32, 0] : Fin 4 → Nat) a + S1x16x16x512.size a ≤ S2x64x64x512.size a
  inb_S2x64x64x512_S1x16x16x512_0_48_32_0 : ∀ a, (![0, 48, 32, 0] : Fin 4 → Nat) a + S1x16x16x512.size a ≤ S2x64x64x512.size a
  inb_S2x64x64x512_S1x16x16x512_0_0_48_0 : ∀ a, (![0, 0, 48, 0] : Fin 4 → Nat) a + S1x16x16x512.size a ≤ S2x64x64x512.size a
  inb_S2x64x64x512_S1x16x16x512_0_16_48_0 : ∀ a, (![0, 16, 48, 0] : Fin 4 → Nat) a + S1x16x16x512.size a ≤ S2x64x64x512.size a
  inb_S2x64x64x512_S1x16x16x512_0_32_48_0 : ∀ a, (![0, 32, 48, 0] : Fin 4 → Nat) a + S1x16x16x512.size a ≤ S2x64x64x512.size a
  inb_S2x64x64x512_S1x16x16x512_0_48_48_0 : ∀ a, (![0, 48, 48, 0] : Fin 4 → Nat) a + S1x16x16x512.size a ≤ S2x64x64x512.size a
  concatenates_S1x512_S1x512_S1x512_S1x512_S1x512_S1x512_S1x512_S1x512_S1x512_S1x512_S1x512_S1x512_S1x512_S1x512_S1x512_S1x512_S1x512_S1x512_S1x512_S1x512_S1x512_S21x512_d0 : Shape.Concatenates [S1x512, S1x512, S1x512, S1x512, S1x512, S1x512, S1x512, S1x512, S1x512, S1x512, S1x512, S1x512, S1x512, S1x512, S1x512, S1x512, S1x512, S1x512, S1x512, S1x512, S1x512] S21x512 0
  inb_S2x21x512_S1x21x512_0_0_0 : ∀ a, (![0, 0, 0] : Fin 3 → Nat) a + S1x21x512.size a ≤ S2x21x512.size a
  h_S1x21x512 : 0 < S1x21x512.numel
  shapeCasts_S1x21x512_S21x512 : S1x21x512.ShapeCasts S21x512
  shapeCasts_S21x512_S1x21x512 : S21x512.ShapeCasts S1x21x512
  inb_S2x64x64x512_S1x64x64x512_1_0_0_0 : ∀ a, (![1, 0, 0, 0] : Fin 4 → Nat) a + S1x64x64x512.size a ≤ S2x64x64x512.size a
  inb_S2x64x64x512_S1x32x32x512_1_0_0_0 : ∀ a, (![1, 0, 0, 0] : Fin 4 → Nat) a + S1x32x32x512.size a ≤ S2x64x64x512.size a
  inb_S2x64x64x512_S1x32x32x512_1_32_0_0 : ∀ a, (![1, 32, 0, 0] : Fin 4 → Nat) a + S1x32x32x512.size a ≤ S2x64x64x512.size a
  inb_S2x64x64x512_S1x32x32x512_1_0_32_0 : ∀ a, (![1, 0, 32, 0] : Fin 4 → Nat) a + S1x32x32x512.size a ≤ S2x64x64x512.size a
  inb_S2x64x64x512_S1x32x32x512_1_32_32_0 : ∀ a, (![1, 32, 32, 0] : Fin 4 → Nat) a + S1x32x32x512.size a ≤ S2x64x64x512.size a
  inb_S2x64x64x512_S1x16x16x512_1_0_0_0 : ∀ a, (![1, 0, 0, 0] : Fin 4 → Nat) a + S1x16x16x512.size a ≤ S2x64x64x512.size a
  inb_S2x64x64x512_S1x16x16x512_1_16_0_0 : ∀ a, (![1, 16, 0, 0] : Fin 4 → Nat) a + S1x16x16x512.size a ≤ S2x64x64x512.size a
  inb_S2x64x64x512_S1x16x16x512_1_32_0_0 : ∀ a, (![1, 32, 0, 0] : Fin 4 → Nat) a + S1x16x16x512.size a ≤ S2x64x64x512.size a
  inb_S2x64x64x512_S1x16x16x512_1_48_0_0 : ∀ a, (![1, 48, 0, 0] : Fin 4 → Nat) a + S1x16x16x512.size a ≤ S2x64x64x512.size a
  inb_S2x64x64x512_S1x16x16x512_1_0_16_0 : ∀ a, (![1, 0, 16, 0] : Fin 4 → Nat) a + S1x16x16x512.size a ≤ S2x64x64x512.size a
  inb_S2x64x64x512_S1x16x16x512_1_16_16_0 : ∀ a, (![1, 16, 16, 0] : Fin 4 → Nat) a + S1x16x16x512.size a ≤ S2x64x64x512.size a
  inb_S2x64x64x512_S1x16x16x512_1_32_16_0 : ∀ a, (![1, 32, 16, 0] : Fin 4 → Nat) a + S1x16x16x512.size a ≤ S2x64x64x512.size a
  inb_S2x64x64x512_S1x16x16x512_1_48_16_0 : ∀ a, (![1, 48, 16, 0] : Fin 4 → Nat) a + S1x16x16x512.size a ≤ S2x64x64x512.size a
  inb_S2x64x64x512_S1x16x16x512_1_0_32_0 : ∀ a, (![1, 0, 32, 0] : Fin 4 → Nat) a + S1x16x16x512.size a ≤ S2x64x64x512.size a
  inb_S2x64x64x512_S1x16x16x512_1_16_32_0 : ∀ a, (![1, 16, 32, 0] : Fin 4 → Nat) a + S1x16x16x512.size a ≤ S2x64x64x512.size a
  inb_S2x64x64x512_S1x16x16x512_1_32_32_0 : ∀ a, (![1, 32, 32, 0] : Fin 4 → Nat) a + S1x16x16x512.size a ≤ S2x64x64x512.size a
  inb_S2x64x64x512_S1x16x16x512_1_48_32_0 : ∀ a, (![1, 48, 32, 0] : Fin 4 → Nat) a + S1x16x16x512.size a ≤ S2x64x64x512.size a
  inb_S2x64x64x512_S1x16x16x512_1_0_48_0 : ∀ a, (![1, 0, 48, 0] : Fin 4 → Nat) a + S1x16x16x512.size a ≤ S2x64x64x512.size a
  inb_S2x64x64x512_S1x16x16x512_1_16_48_0 : ∀ a, (![1, 16, 48, 0] : Fin 4 → Nat) a + S1x16x16x512.size a ≤ S2x64x64x512.size a
  inb_S2x64x64x512_S1x16x16x512_1_32_48_0 : ∀ a, (![1, 32, 48, 0] : Fin 4 → Nat) a + S1x16x16x512.size a ≤ S2x64x64x512.size a
  inb_S2x64x64x512_S1x16x16x512_1_48_48_0 : ∀ a, (![1, 48, 48, 0] : Fin 4 → Nat) a + S1x16x16x512.size a ≤ S2x64x64x512.size a
  inb_S2x21x512_S1x21x512_1_0_0 : ∀ a, (![1, 0, 0] : Fin 3 → Nat) a + S1x21x512.size a ≤ S2x21x512.size a
  shapeCasts_S32x21x512_S32x10752 : S32x21x512.ShapeCasts S32x10752
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x64x64x512.size a ≤ S32x64x64x512.size a
  hwx0_0 : ∀ i : grid0.Coords, EltTy.bits .f32 = 32 ∨ (Rect.block (s := S32x64x64x512) S2x64x64x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x21x512.size a ≤ S32x21x512.size a
  hwx0_1 : ∀ i : grid0.Coords, EltTy.bits .f32 = 32 ∨ (Rect.block (s := S32x21x512) S2x21x512.size (cc0_transform_1 i) (hinb0_1 i)).WholeWords (EltTy.packing .f32)

variable [Facts₀]

abbrev win0_0 : Pipeline.Window sig grid0 :=
  Pipeline.Window.ofSpec (Memref.whole main_arg0) S2x64x64x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2x21x512.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S32x64x64x512 : Shape := ⟨4, ![32, 64, 64, 512]⟩
abbrev S32x1x64x1x64x512 : Shape := ⟨6, ![32, 1, 64, 1, 64, 512]⟩
abbrev S_ : Shape := ⟨0, ![]⟩
abbrev S32x1x1x512 : Shape := ⟨4, ![32, 1, 1, 512]⟩
abbrev S32x512 : Shape := ⟨2, ![32, 512]⟩
abbrev S32x2x32x2x32x512 : Shape := ⟨6, ![32, 2, 32, 2, 32, 512]⟩
abbrev S32x2x2x512 : Shape := ⟨4, ![32, 2, 2, 512]⟩
abbrev S32x2048 : Shape := ⟨2, ![32, 2048]⟩
abbrev S32x4x16x4x16x512 : Shape := ⟨6, ![32, 4, 16, 4, 16, 512]⟩
abbrev S32x4x4x512 : Shape := ⟨4, ![32, 4, 4, 512]⟩
abbrev S32x8192 : Shape := ⟨2, ![32, 8192]⟩
abbrev S32x10752 : Shape := ⟨2, ![32, 10752]⟩

abbrev nBuf : Space → Nat
  | .hbm => 35
  | .vmem => 0
  | .smem => 0
  | _ => 0

abbrev bufTy : (tb : Table) → Fin (tcTables nBuf tb) → BufTy
  | .hbm, ⟨0, _⟩ => ⟨S32x64x64x512, .f32⟩
  | .hbm, ⟨1, _⟩ => ⟨S32x1x64x1x64x512, .f32⟩
  | .hbm, ⟨2, _⟩ => ⟨S_, .f32⟩
  | .hbm, ⟨3, _⟩ => ⟨S32x1x1x512, .f32⟩
  | .hbm, ⟨4, _⟩ => ⟨S_, .f32⟩
  | .hbm, ⟨5, _⟩ => ⟨S32x1x1x512, .f32⟩
  | .hbm, ⟨6, _⟩ => ⟨S_, .f32⟩
  | .hbm, ⟨7, _⟩ => ⟨S32x1x1x512, .f32⟩
  | .hbm, ⟨8, _⟩ => ⟨S32x1x1x512, .f32⟩
  | .hbm, ⟨9, _⟩ => ⟨S32x1x1x512, .f32⟩
  | .hbm, ⟨10, _⟩ => ⟨S32x1x1x512, .f32⟩
  | .hbm, ⟨11, _⟩ => ⟨S32x512, .f32⟩
  | .hbm, ⟨12, _⟩ => ⟨S32x2x32x2x32x512, .f32⟩
  | .hbm, ⟨13, _⟩ => ⟨S_, .f32⟩
  | .hbm, ⟨14, _⟩ => ⟨S32x2x2x512, .f32⟩
  | .hbm, ⟨15, _⟩ => ⟨S_, .f32⟩
  | .hbm, ⟨16, _⟩ => ⟨S32x2x2x512, .f32⟩
  | .hbm, ⟨17, _⟩ => ⟨S_, .f32⟩
  | .hbm, ⟨18, _⟩ => ⟨S32x2x2x512, .f32⟩
  | .hbm, ⟨19, _⟩ => ⟨S32x2x2x512, .f32⟩
  | .hbm, ⟨20, _⟩ => ⟨S32x2x2x512, .f32⟩
  | .hbm, ⟨21, _⟩ => ⟨S32x2x2x512, .f32⟩
  | .hbm, ⟨22, _⟩ => ⟨S32x2048, .f32⟩
  | .hbm, ⟨23, _⟩ => ⟨S32x4x16x4x16x512, .f32⟩
  | .hbm, ⟨24, _⟩ => ⟨S_, .f32⟩
  | .hbm, ⟨25, _⟩ => ⟨S32x4x4x512, .f32⟩
  | .hbm, ⟨26, _⟩ => ⟨S_, .f32⟩
  | .hbm, ⟨27, _⟩ => ⟨S32x4x4x512, .f32⟩
  | .hbm, ⟨28, _⟩ => ⟨S_, .f32⟩
  | .hbm, ⟨29, _⟩ => ⟨S32x4x4x512, .f32⟩
  | .hbm, ⟨30, _⟩ => ⟨S32x4x4x512, .f32⟩
  | .hbm, ⟨31, _⟩ => ⟨S32x4x4x512, .f32⟩
  | .hbm, ⟨32, _⟩ => ⟨S32x4x4x512, .f32⟩
  | .hbm, ⟨33, _⟩ => ⟨S32x8192, .f32⟩
  | .hbm, ⟨34, _⟩ => ⟨S32x10752, .f32⟩
  | _, _ => ⟨S32x64x64x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_cst_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_2 : Ref sig .tc := ⟨.hbm, 13, rfl⟩
abbrev main_v9 : Ref sig .tc := ⟨.hbm, 14, rfl⟩
abbrev main_cst_3 : Ref sig .tc := ⟨.hbm, 15, rfl⟩
abbrev main_v10 : Ref sig .tc := ⟨.hbm, 16, rfl⟩
abbrev main_cst_4 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_5 : Ref sig .tc := ⟨.hbm, 24, rfl⟩
abbrev main_v17 : Ref sig .tc := ⟨.hbm, 25, rfl⟩
abbrev main_cst_6 : Ref sig .tc := ⟨.hbm, 26, rfl⟩
abbrev main_v18 : Ref sig .tc := ⟨.hbm, 27, rfl⟩
abbrev main_cst_7 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩

abbrev nD : Nat := 1
abbrev τ : Topo := Topo.v7x

variable {F : FTy → Type} [FloatOps F]

class Facts₀ : Prop where
  shapeCasts_S32x64x64x512_S32x1x64x1x64x512 : S32x64x64x512.ShapeCasts S32x1x64x1x64x512
  reducesTo_S32x1x64x1x64x512_S32x1x1x512_d2_4 : S32x1x64x1x64x512.ReducesTo [2, 4] S32x1x1x512
  h_S_ : 0 < S_.numel
  bcast_S_S32x1x1x512 : S_.BroadcastsInDim S32x1x1x512 (![] : Fin 0 → Fin S32x1x1x512.rank)
  transposes_S32x1x1x512_S32x1x1x512_0_2_1_3 : S32x1x1x512.Transposes [0, 2, 1, 3] S32x1x1x512
  shapeCasts_S32x1x1x512_S32x512 : S32x1x1x512.ShapeCasts S32x512
  shapeCasts_S32x64x64x512_S32x2x32x2x32x512 : S32x64x64x512.ShapeCasts S32x2x32x2x32x512
  reducesTo_S32x2x32x2x32x512_S32x2x2x512_d2_4 : S32x2x32x2x32x512.ReducesTo [2, 4] S32x2x2x512
  bcast_S_S32x2x2x512 : S_.BroadcastsInDim S32x2x2x512 (![] : Fin 0 → Fin S32x2x2x512.rank)
  transposes_S32x2x2x512_S32x2x2x512_0_2_1_3 : S32x2x2x512.Transposes [0, 2, 1, 3] S32x2x2x512
  shapeCasts_S32x2x2x512_S32x2048 : S32x2x2x512.ShapeCasts S32x2048
  shapeCasts_S32x64x64x512_S32x4x16x4x16x512 : S32x64x64x512.ShapeCasts S32x4x16x4x16x512
  reducesTo_S32x4x16x4x16x512_S32x4x4x512_d2_4 : S32x4x16x4x16x512.ReducesTo [2, 4] S32x4x4x512
  bcast_S_S32x4x4x512 : S_.BroadcastsInDim S32x4x4x512 (![] : Fin 0 → Fin S32x4x4x512.rank)
  transposes_S32x4x4x512_S32x4x4x512_0_2_1_3 : S32x4x4x512.Transposes [0, 2, 1, 3] S32x4x4x512
  shapeCasts_S32x4x4x512_S32x8192 : S32x4x4x512.ShapeCasts S32x8192
  concatenates_S32x512_S32x2048_S32x8192_S32x10752_d1 : Shape.Concatenates [S32x512, S32x2048, S32x8192] S32x10752 1

variable [Facts₀]

class Facts : Prop extends Facts₀ where

variable [Facts]
-- ==== Proof.Spec.lean ====
/-
  Spatial pyramid pooling of a [B, 64, 64, 512] map over three levels (1×1, 2×2 and 4×4 bins), each bin's value the
  MAXIMUM of its window plus the MEAN of its window (the window's sum times the reciprocal of its size, an exact power
  of two).  This module only states the mathematics: one window's pooled value, one level's bin, the 21 bins of a
  batch entry in the order (level; bin column outer, bin row inner), and the flat [32, 21 · 512] result.
-/
import Idealize.ShloMosaic.PureOps.Ideal
import Idealize.ShloMosaic.Lib.ValueIdx

noncomputable section

namespace Cert.Pyramid

open Idealize.ShloMosaic Idealize.ShloMosaic.ValueIdx

/-- One window's pooled value: the supremum of its `w × w` entries plus their sum times `scale`. -/
def pool (w : Nat) (scale : EReal) (X : Fin w → Fin w → EReal) : EReal :=
  (Finset.univ.sup fun q : Fin w × Fin w => X q.1 q.2) + (∑ q : Fin w × Fin w, X q.1 q.2) * scale

/-- Row `r` of bin `i` of a level of `p` bins of `w` rows lies inside the 64 rows. -/
theorem win_lt {p w : Nat} (hpw : p * w = 64) (i : Fin p) (r : Fin w) : i.val * w + r.val < 64 := by
  have h1 : i.val * w + r.val < (i.val + 1) * w := by rw [Nat.succ_mul]; exact Nat.add_lt_add_left r.isLt _
  exact lt_of_lt_of_le h1 (hpw ▸ Nat.mul_le_mul_right w i.isLt)

/-- Bin (row `ih`, column `iw`) of the level of `p × p` bins of `w × w` entries, of batch entry `b` at channel `c`. -/
def level {B : Nat} (p w : Nat) (hpw : p * w = 64) (scale : EReal) (x : (⟨4, ![B, 64, 64, 512]⟩ : Shape).Idx → EReal)
    (b : Fin B) (ih iw : Fin p) (c : Fin 512) : EReal :=
  pool w scale fun r s => x (ix4 b ⟨ih.val * w + r.val, win_lt hpw ih r⟩ ⟨iw.val * w + s.val, win_lt hpw iw s⟩ c)

/-- The 21 bins of a batch entry: bin 0 the whole map; bins 1–4 the 2×2 level and bins 5–20 the 4×4 level, within a
    level the bin COLUMN outer and the bin ROW inner (bin `k` of a level of `p` is row `k % p`, column `k / p`). -/
def bins {B : Nat} (x : (⟨4, ![B, 64, 64, 512]⟩ : Shape).Idx → EReal) (b : Fin B) (k : Fin 21) (c : Fin 512) : EReal :=
  if h1 : k.val < 1 then level 1 64 rfl ((1 / 4096 : ℝ) : EReal) x b 0 0 c
  else if h5 : k.val < 5 then
    level 2 32 rfl ((1 / 1024 : ℝ) : EReal) x b ⟨(k.val - 1) % 2, Nat.mod_lt _ (by decide)⟩
      ⟨(k.val - 1) / 2, by omega⟩ c
  else
    level 4 16 rfl ((1 / 256 : ℝ) : EReal) x b ⟨(k.val - 5) % 4, Nat.mod_lt _ (by decide)⟩
      ⟨(k.val - 5) / 4, by have := k.isLt; omega⟩ c

/-- The bins as a [B, 21, 512] array. -/
def binsArr {B : Nat} (x : (⟨4, ![B, 64, 64, 512]⟩ : Shape).Idx → EReal) : (⟨3, ![B, 21, 512]⟩ : Shape).Idx → EReal :=
  fun i => bins x (i 0) (i 1) (i 2)

/-- The result: the bins of each batch entry laid out flat, bin `j / 512` at channel `j % 512`. -/
def flat (x : (⟨4, ![32, 64, 64, 512]⟩ : Shape).Idx → EReal) : (⟨2, ![32, 10752]⟩ : Shape).Idx → EReal :=
  fun j => bins x (j 0) ⟨(j 1).val / 512, by have h : (j 1).val < 10752 := (j 1).isLt; omega⟩
    ⟨(j 1).val % 512, Nat.mod_lt _ (by decide)⟩

/-- A bin of batch entry `b` at channel `c` depends only on that entry's map at that channel. -/
theorem bins_congr {B B' : Nat} (x : (⟨4, ![B, 64, 64, 512]⟩ : Shape).Idx → EReal)
    (x' : (⟨4, ![B', 64, 64, 512]⟩ : Shape).Idx → EReal) (b : Fin B) (b' : Fin B') (c : Fin 512)
    (h : ∀ r s : Fin 64, x (ix4 b r s c) = x' (ix4 b' r s c)) (k : Fin 21) : bins x b k c = bins x' b' k c := by
  unfold bins level pool
  simp only [h]

/-! ## The float words the two programs spell, as extended reals -/

theorem ofBits_negInf : Ideal.ofBits .f32 0xFF800000#32 = (⊥ : EReal) := by
  simp [Ideal.ofBits, Ideal.ieee]
theorem ofBits_zero : Ideal.ofBits .f32 0x00000000#32 = 0 := by
  simp [Ideal.ofBits, Ideal.ieee]
theorem ofBits_4096 : Ideal.ofBits .f32 0x45800000#32 = ((4096 : ℝ) : EReal) := by
  simp [Ideal.ofBits, Ideal.ieee, -EReal.coe_mul]; norm_num
theorem ofBits_1024 : Ideal.ofBits .f32 0x44800000#32 = ((1024 : ℝ) : EReal) := by
  simp [Ideal.ofBits, Ideal.ieee, -EReal.coe_mul]; norm_num
theorem ofBits_256 : Ideal.ofBits .f32 0x43800000#32 = ((256 : ℝ) : EReal) := by
  simp [Ideal.ofBits, Ideal.ieee, -EReal.coe_mul]; norm_num
theorem ofBits_inv4096 : Ideal.ofBits .f32 0x39800000#32 = ((1 / 4096 : ℝ) : EReal) := by
  simp [Ideal.ofBits, Ideal.ieee, -EReal.coe_mul]; norm_num
theorem ofBits_inv1024 : Ideal.ofBits .f32 0x3A800000#32 = ((1 / 1024 : ℝ) : EReal) := by
  simp [Ideal.ofBits, Ideal.ieee, -EReal.coe_mul]; norm_num
theorem ofBits_inv256 : Ideal.ofBits .f32 0x3B800000#32 = ((1 / 256 : ℝ) : EReal) := by
  simp [Ideal.ofBits, Ideal.ieee, -EReal.coe_mul]; norm_num

end Cert.Pyramid

end
-- ==== Proof.KernelBin.lean ====
/-
  One bin of the kernel's body at the ideal instance.  A window [1, w, w, 512] loaded from the block is viewed [w, w, 512];
  its maximum is taken over the rows and then over the columns, its sum likewise, the sum is scaled by a constant and the
  two are added.  A maximum of maxima from -∞ is the supremum over the pairs (row, column), a sum of sums the sum over
  the pairs: one window's pooled value.  The window loaded at rows oh…oh+w-1 and columns ow…ow+w-1 of batch entry b of
  the block is the bin (oh / w, ow / w) of that entry's level of 64 / w bins.
-/
import proofs.«109706_j40166534152820_1_alg».proof.Proof.Gen.KernelIdeal.Frame
import proofs.«109706_j40166534152820_1_alg».proof.Proof.Spec
import Idealize.ShloMosaic.PureOps.Ideal.Laws
import Idealize.ShloMosaic.Lib.Pipeline.Value
import Idealize.ShloMosaic.Lib.ValueIdx

noncomputable section

namespace Cert.KernelIdeal.Pyramid

open Cert.KernelIdeal Cert.KernelIdeal.Gen Idealize.ShloMosaic Idealize.ShloMosaic.ValueIdx Idealize.SL.Sem Cert.Pyramid

/-- A fold of `max` from `⊥` over a finite set is the supremum over it. -/
theorem fold_max_bot {ι : Type} (s : Finset ι) (f : ι → EReal) : s.fold max (⊥ : EReal) f = s.sup f := by
  classical
  induction s using Finset.induction_on with
  | empty => simp
  | insert a s ha ih => rw [Finset.fold_insert ha, Finset.sup_insert, ih]

/-- Reducing the rows away: the index (s, c) of the result with row r put back is (r, s, c). -/
theorem lift3 {w : Nat} (h : (⟨3, ![w, w, 512]⟩ : Shape).Reduces [0] ⟨2, ![w, 512]⟩) (s : Fin w) (c : Fin 512) (r : Fin w) :
    h.lift (ix2 s c) r = ix3 r s c := by
  funext a; match a with | ⟨0, _⟩ => rfl | ⟨1, _⟩ => rfl | ⟨2, _⟩ => rfl

/-- Reducing the columns away: the index c of the result with column s put back is (s, c). -/
theorem lift2 {w : Nat} (h : (⟨2, ![w, 512]⟩ : Shape).Reduces [0] ⟨1, ![512]⟩) (c : Fin 512) (s : Fin w) :
    h.lift (ix1 c) s = ix2 s c := by
  funext a; match a with | ⟨0, _⟩ => rfl | ⟨1, _⟩ => rfl

/-- The maximum over the rows, at (s, c): the supremum over r of the entry (r, s, c). -/
theorem max3 {w : Nat} (v : FVec Ideal ⟨3, ![w, w, 512]⟩ .f32) (h : (⟨3, ![w, w, 512]⟩ : Shape).Reduces [0] ⟨2, ![w, 512]⟩)
    (hφ : FKind.Formats .f32) (hacc : (0xFF800000#32 : BitVec 32) = FKind.maximumf.neutral .f32 hφ) (s : Fin w) (c : Fin 512) :
    multiReduction .maximumf [0] ⟨2, ![w, 512]⟩ v 0xFF800000#32 h hφ hacc (ix2 s c) = Finset.univ.sup fun r : Fin w => v (ix3 r s c) := by
  refine (Ideal.multiReduction_maximumf_single v _ h hφ hacc (ix2 s c)).trans ?_
  rw [show FloatOps.ofBits (F := Ideal) .f32 0xFF800000#32 = (⊥ : EReal) from ofBits_negInf, fold_max_bot]
  exact Finset.sup_congr rfl fun r _ => congrArg v (lift3 h s c r)

/-- The maximum over the columns, at c: the supremum over s of the entry (s, c). -/
theorem max2 {w : Nat} (v : FVec Ideal ⟨2, ![w, 512]⟩ .f32) (h : (⟨2, ![w, 512]⟩ : Shape).Reduces [0] ⟨1, ![512]⟩)
    (hφ : FKind.Formats .f32) (hacc : (0xFF800000#32 : BitVec 32) = FKind.maximumf.neutral .f32 hφ) (c : Fin 512) :
    multiReduction .maximumf [0] ⟨1, ![512]⟩ v 0xFF800000#32 h hφ hacc (ix1 c) = Finset.univ.sup fun s : Fin w => v (ix2 s c) := by
  refine (Ideal.multiReduction_maximumf_single v _ h hφ hacc (ix1 c)).trans ?_
  rw [show FloatOps.ofBits (F := Ideal) .f32 0xFF800000#32 = (⊥ : EReal) from ofBits_negInf, fold_max_bot]
  exact Finset.sup_congr rfl fun s _ => congrArg v (lift2 h c s)

/-- The sum over the rows, at (s, c). -/
theorem sum3 {w : Nat} (v : FVec Ideal ⟨3, ![w, w, 512]⟩ .f32) (h : (⟨3, ![w, w, 512]⟩ : Shape).Reduces [0] ⟨2, ![w, 512]⟩)
    (hφ : FKind.Formats .f32) (hacc : (0x00000000#32 : BitVec 32) = FKind.add.neutral .f32 hφ) (s : Fin w) (c : Fin 512) :
    multiReduction .add [0] ⟨2, ![w, 512]⟩ v 0x00000000#32 h hφ hacc (ix2 s c) = ∑ r : Fin w, v (ix3 r s c) := by
  refine (Ideal.multiReduction_add_single v _ h hφ hacc (ix2 s c)).trans ?_
  exact Finset.sum_congr rfl fun r _ => congrArg v (lift3 h s c r)

/-- The sum over the columns, at c. -/
theorem sum2 {w : Nat} (v : FVec Ideal ⟨2, ![w, 512]⟩ .f32) (h : (⟨2, ![w, 512]⟩ : Shape).Reduces [0] ⟨1, ![512]⟩)
    (hφ : FKind.Formats .f32) (hacc : (0x00000000#32 : BitVec 32) = FKind.add.neutral .f32 hφ) (c : Fin 512) :
    multiReduction .add [0] ⟨1, ![512]⟩ v 0x00000000#32 h hφ hacc (ix1 c) = ∑ s : Fin w, v (ix2 s c) := by
  refine (Ideal.multiReduction_add_single v _ h hφ hacc (ix1 c)).trans ?_
  exact Finset.sum_congr rfl fun s _ => congrArg v (lift2 h c s)

/-- Maximum of the column maxima plus the scaled sum of the column sums, at channel c: the window's pooled value. -/
theorem pool_of_reductions {w : Nat} (v3 : FVec Ideal ⟨3, ![w, w, 512]⟩ .f32)
    (h1 : (⟨3, ![w, w, 512]⟩ : Shape).Reduces [0] ⟨2, ![w, 512]⟩) (h2 : (⟨2, ![w, 512]⟩ : Shape).Reduces [0] ⟨1, ![512]⟩)
    (hφ : FKind.Formats .f32) (hm : (0xFF800000#32 : BitVec 32) = FKind.maximumf.neutral .f32 hφ)
    (ha : (0x00000000#32 : BitVec 32) = FKind.add.neutral .f32 hφ)
    (e : BitVec 32) (c : Fin 512) :
    (addf (multiReduction .maximumf [0] ⟨1, ![512]⟩ (multiReduction .maximumf [0] ⟨2, ![w, 512]⟩ v3 0xFF800000#32 h1 hφ hm) 0xFF800000#32 h2 hφ hm)
      (mulf (multiReduction .add [0] ⟨1, ![512]⟩ (multiReduction .add [0] ⟨2, ![w, 512]⟩ v3 0x00000000#32 h1 hφ ha) 0x00000000#32 h2 hφ ha)
        (broadcast ⟨1, ![512]⟩ (Scalar.ofBits .f32 e)))) (ix1 c)
    = pool w (Ideal.ofBits .f32 e) (fun r s => v3 (ix3 r s c)) := by
  have hmax : multiReduction .maximumf [0] ⟨1, ![512]⟩ (multiReduction .maximumf [0] ⟨2, ![w, 512]⟩ v3 0xFF800000#32 h1 hφ hm) 0xFF800000#32 h2 hφ hm (ix1 c)
      = Finset.univ.sup fun q : Fin w × Fin w => v3 (ix3 q.1 q.2 c) := by
    refine (max2 _ h2 hφ hm c).trans ?_
    rw [← Finset.univ_product_univ, Finset.sup_product_right]
    exact Finset.sup_congr rfl fun s _ => max3 v3 h1 hφ hm s c
  have hsum : multiReduction .add [0] ⟨1, ![512]⟩ (multiReduction .add [0] ⟨2, ![w, 512]⟩ v3 0x00000000#32 h1 hφ ha) 0x00000000#32 h2 hφ ha (ix1 c)
      = ∑ q : Fin w × Fin w, v3 (ix3 q.1 q.2 c) := by
    refine (sum2 _ h2 hφ ha c).trans ?_
    rw [Fintype.sum_prod_type_right]
    exact Finset.sum_congr rfl fun s _ => sum3 v3 h1 hφ ha s c
  exact congrArg₂ (fun a b : EReal => a + b * Ideal.ofBits .f32 e) hmax hsum

/-- The same through the two changes of view: the loaded [1, w, w, 512] window viewed [w, w, 512], the [512] result
    viewed [1, 512]. -/
theorem bin_apply {w : Nat} (v : Vec Ideal ⟨4, ![1, w, w, 512]⟩ .f32)
    (hc : (⟨4, ![1, w, w, 512]⟩ : Shape).ShapeCasts ⟨3, ![w, w, 512]⟩)
    (h1 : (⟨3, ![w, w, 512]⟩ : Shape).Reduces [0] ⟨2, ![w, 512]⟩) (h2 : (⟨2, ![w, 512]⟩ : Shape).Reduces [0] ⟨1, ![512]⟩)
    (hu : (⟨1, ![512]⟩ : Shape).ShapeCasts ⟨2, ![1, 512]⟩)
    (hφ : FKind.Formats .f32) (hm : (0xFF800000#32 : BitVec 32) = FKind.maximumf.neutral .f32 hφ)
    (ha : (0x00000000#32 : BitVec 32) = FKind.add.neutral .f32 hφ) (e : BitVec 32) (c : Fin 512) :
    shapeCast ⟨2, ![1, 512]⟩
      (addf (multiReduction .maximumf [0] ⟨1, ![512]⟩ (multiReduction .maximumf [0] ⟨2, ![w, 512]⟩ (shapeCast ⟨3, ![w, w, 512]⟩ v hc : FVec Ideal ⟨3, ![w, w, 512]⟩ .f32) 0xFF800000#32 h1 hφ hm) 0xFF800000#32 h2 hφ hm)
        (mulf (multiReduction .add [0] ⟨1, ![512]⟩ (multiReduction .add [0] ⟨2, ![w, 512]⟩ (shapeCast ⟨3, ![w, w, 512]⟩ v hc : FVec Ideal ⟨3, ![w, w, 512]⟩ .f32) 0x00000000#32 h1 hφ ha) 0x00000000#32 h2 hφ ha)
          (broadcast ⟨1, ![512]⟩ (Scalar.ofBits .f32 e)))) hu (ix2 0 c)
    = pool w (Ideal.ofBits .f32 e) (fun r s => v (ix4 0 r s c)) := by
  refine (shapeCast_addUnit_apply ![512] _ hu (ix2 0 c)).trans ?_
  have hi : (fun a : Fin 1 => (ix2 (0 : Fin 1) c : (⟨2, ![1, 512]⟩ : Shape).Idx) a.succ) = ix1 c := by
    funext a; match a with | ⟨0, _⟩ => rfl
  rw [hi]
  refine (pool_of_reductions _ h1 h2 hφ hm ha e c).trans ?_
  unfold Cert.Pyramid.pool
  have hv : ∀ r s : Fin w, shapeCast ⟨3, ![w, w, 512]⟩ v hc (ix3 r s c) = v (ix4 0 r s c) := fun r s => by
    refine (shapeCast_dropUnit_apply ![w, w, 512] v hc (ix3 r s c)).trans (congrArg v ?_)
    funext a; match a with | ⟨0, _⟩ => rfl | ⟨1, _⟩ => rfl | ⟨2, _⟩ => rfl | ⟨3, _⟩ => rfl
  simp only [hv]

/-- The three bins the body spells, at (0, c). -/
theorem pay64 (v : Vec Ideal S1x64x64x512 .f32) (c : Fin 512) :
    k0_pay4 (F := Ideal) v (ix2 0 c) = pool 64 ((1 / 4096 : ℝ) : EReal) (fun r s => v (ix4 0 r s c)) :=
  (bin_apply v _ _ _ _ (.inl rfl) rfl rfl _ c).trans (by rw [ofBits_inv4096])

theorem pay32 (v : Vec Ideal S1x32x32x512 .f32) (c : Fin 512) :
    k0_pay5 (F := Ideal) v (ix2 0 c) = pool 32 ((1 / 1024 : ℝ) : EReal) (fun r s => v (ix4 0 r s c)) :=
  (bin_apply v _ _ _ _ (.inl rfl) rfl rfl _ c).trans (by rw [ofBits_inv1024])

theorem pay16 (v : Vec Ideal S1x16x16x512 .f32) (c : Fin 512) :
    k0_pay9 (F := Ideal) v (ix2 0 c) = pool 16 ((1 / 256 : ℝ) : EReal) (fun r s => v (ix4 0 r s c)) :=
  (bin_apply v _ _ _ _ (.inl rfl) rfl rfl _ c).trans (by rw [ofBits_inv256])

end Cert.KernelIdeal.Pyramid

end
-- ==== Proof.KernelBlock.lean ====
/-
  What the kernel's body leaves in its output block: for each of the two batch entries of the block, the 21 bins, each
  the maximum of its window (a maximum over rows, then over columns) plus the sum of its window (likewise) times the
  reciprocal of the window's size.  The block is written by two stores, one batch entry each; a store's value is the
  21 rows [1, 512] joined along the first axis, so row k at channel c is bin k's value at c.
-/
import proofs.«109706_j40166534152820_1_alg».proof.Proof.KernelBin

noncomputable section

namespace Cert.KernelIdeal.Pyramid

open Cert.KernelIdeal Cert.KernelIdeal.Gen Idealize.ShloMosaic Idealize.ShloMosaic.ValueIdx Idealize.SL.Sem Cert.Pyramid

/-- A load of the block through the unit rectangle at (b, oh, ow, 0) of extents (1, w, w, 512), read at (0, r, s, c), is
    the block at (b, oh + r, ow + s, c). -/
theorem ld_window (x0 : Vec Ideal S2x64x64x512 .f32) {w : Nat} (off : Fin 4 → Nat)
    (inb : ∀ a, off a + (⟨4, ![1, w, w, 512]⟩ : Shape).size a ≤ S2x64x64x512.size a)
    (b : Fin 2) (oh ow : Nat) (hoff : off = ![b.val, oh, ow, 0]) (hh : oh + w ≤ 64) (hw : ow + w ≤ 64)
    (r s : Fin w) (c : Fin 512) :
    View.ld x0 (Rect.unit (s := S2x64x64x512) off (⟨4, ![1, w, w, 512]⟩ : Shape).size inb) (ix4 0 r s c)
      = x0 (ix4 b ⟨oh + r.val, by have := r.isLt; omega⟩ ⟨ow + s.val, by have := s.isLt; omega⟩ c) := by
  subst hoff
  refine congrArg x0 (funext fun a => Fin.ext ?_)
  match a with
  | ⟨0, _⟩ => show b.val + 1 * ((0 : Fin 1) : Nat) = b.val; simp
  | ⟨1, _⟩ => show oh + 1 * r.val = oh + r.val; omega
  | ⟨2, _⟩ => show ow + 1 * s.val = ow + s.val; omega
  | ⟨3, _⟩ => show 0 + 1 * c.val = c.val; omega

/-- The bin the body computes from the 16×16 window loaded at (b, ih·16, iw·16) is bin (ih, iw) of entry b's 4×4 level. -/
theorem case16 (x0 : Vec Ideal S2x64x64x512 .f32) (b : Fin 2) (ih iw : Fin 4) (off : Fin 4 → Nat)
    (inb : ∀ a, off a + S1x16x16x512.size a ≤ S2x64x64x512.size a) (hoff : off = ![b.val, ih.val * 16, iw.val * 16, 0]) (c : Fin 512) :
    k0_pay9 (F := Ideal) (View.ld x0 (Rect.unit (s := S2x64x64x512) off S1x16x16x512.size inb)) (ix2 0 c)
      = level 4 16 rfl ((1 / 256 : ℝ) : EReal) x0 b ih iw c := by
  refine (pay16 _ c).trans ?_
  unfold level
  congr 1
  funext r s
  exact ld_window x0 off inb b _ _ hoff (by have := ih.isLt; omega) (by have := iw.isLt; omega) r s c

theorem case32 (x0 : Vec Ideal S2x64x64x512 .f32) (b : Fin 2) (ih iw : Fin 2) (off : Fin 4 → Nat)
    (inb : ∀ a, off a + S1x32x32x512.size a ≤ S2x64x64x512.size a) (hoff : off = ![b.val, ih.val * 32, iw.val * 32, 0]) (c : Fin 512) :
    k0_pay5 (F := Ideal) (View.ld x0 (Rect.unit (s := S2x64x64x512) off S1x32x32x512.size inb)) (ix2 0 c)
      = level 2 32 rfl ((1 / 1024 : ℝ) : EReal) x0 b ih iw c := by
  refine (pay32 _ c).trans ?_
  unfold level
  congr 1
  funext r s
  exact ld_window x0 off inb b _ _ hoff (by have := ih.isLt; omega) (by have := iw.isLt; omega) r s c

theorem case64 (x0 : Vec Ideal S2x64x64x512 .f32) (b : Fin 2) (ih iw : Fin 1) (off : Fin 4 → Nat)
    (inb : ∀ a, off a + S1x64x64x512.size a ≤ S2x64x64x512.size a) (hoff : off = ![b.val, ih.val * 64, iw.val * 64, 0]) (c : Fin 512) :
    k0_pay4 (F := Ideal) (View.ld x0 (Rect.unit (s := S2x64x64x512) off S1x64x64x512.size inb)) (ix2 0 c)
      = level 1 64 rfl ((1 / 4096 : ℝ) : EReal) x0 b ih iw c := by
  refine (pay64 _ c).trans ?_
  unfold level
  congr 1
  funext r s
  exact ld_window x0 off inb b _ _ hoff (by have := ih.isLt; omega) (by have := iw.isLt; omega) r s c

/-- The 21 bins by level. -/
theorem bins_first {B : Nat} (x : (⟨4, ![B, 64, 64, 512]⟩ : Shape).Idx → EReal) (b : Fin B) (k : Fin 21) (h : k.val < 1) (c : Fin 512) :
    bins x b k c = level 1 64 rfl ((1 / 4096 : ℝ) : EReal) x b 0 0 c := by
  unfold bins; rw [dif_pos h]

theorem bins_second {B : Nat} (x : (⟨4, ![B, 64, 64, 512]⟩ : Shape).Idx → EReal) (b : Fin B) (k : Fin 21) (h1 : ¬ k.val < 1) (h5 : k.val < 5) (c : Fin 512) :
    bins x b k c = level 2 32 rfl ((1 / 1024 : ℝ) : EReal) x b ⟨(k.val - 1) % 2, Nat.mod_lt _ (by decide)⟩ ⟨(k.val - 1) / 2, by omega⟩ c := by
  unfold bins; rw [dif_neg h1, dif_pos h5]

theorem bins_third {B : Nat} (x : (⟨4, ![B, 64, 64, 512]⟩ : Shape).Idx → EReal) (b : Fin B) (k : Fin 21) (h5 : ¬ k.val < 5) (c : Fin 512) :
    bins x b k c = level 4 16 rfl ((1 / 256 : ℝ) : EReal) x b ⟨(k.val - 5) % 4, Nat.mod_lt _ (by decide)⟩
      ⟨(k.val - 5) / 4, by have := k.isLt; omega⟩ c := by
  unfold bins; rw [dif_neg (by omega), dif_neg h5]

/-- Twenty-one rows [1, 512] joined along the first axis, read at (k, c): row k at (0, c). -/
theorem rows21 (v0 v1 v2 v3 v4 v5 v6 v7 v8 v9 v10 v11 v12 v13 v14 v15 v16 v17 v18 v19 v20 : FVec Ideal S1x512 .f32)
    (h : Shape.Concatenates (([⟨S1x512, v0⟩, ⟨S1x512, v1⟩, ⟨S1x512, v2⟩, ⟨S1x512, v3⟩, ⟨S1x512, v4⟩, ⟨S1x512, v5⟩, ⟨S1x512, v6⟩, ⟨S1x512, v7⟩, ⟨S1x512, v8⟩, ⟨S1x512, v9⟩, ⟨S1x512, v10⟩, ⟨S1x512, v11⟩, ⟨S1x512, v12⟩, ⟨S1x512, v13⟩, ⟨S1x512, v14⟩, ⟨S1x512, v15⟩, ⟨S1x512, v16⟩, ⟨S1x512, v17⟩, ⟨S1x512, v18⟩, ⟨S1x512, v19⟩, ⟨S1x512, v20⟩] : List ((s : Shape) × (s.Idx → Ideal .f32))).map (·.1)) S21x512 0)
    (k : Fin 21) (c : Fin 512) :
    concatenate S21x512 0 [⟨S1x512, v0⟩, ⟨S1x512, v1⟩, ⟨S1x512, v2⟩, ⟨S1x512, v3⟩, ⟨S1x512, v4⟩, ⟨S1x512, v5⟩, ⟨S1x512, v6⟩, ⟨S1x512, v7⟩, ⟨S1x512, v8⟩, ⟨S1x512, v9⟩, ⟨S1x512, v10⟩, ⟨S1x512, v11⟩, ⟨S1x512, v12⟩, ⟨S1x512, v13⟩, ⟨S1x512, v14⟩, ⟨S1x512, v15⟩, ⟨S1x512, v16⟩, ⟨S1x512, v17⟩, ⟨S1x512, v18⟩, ⟨S1x512, v19⟩, ⟨S1x512, v20⟩] h (ix2 k c) = (![v0, v1, v2, v3, v4, v5, v6, v7, v8, v9, v10, v11, v12, v13, v14, v15, v16, v17, v18, v19, v20] k) (ix2 0 c) :=
  concatenate_ofFn_unit_apply (t := S21x512) (s₁ := S1x512) (0 : Fin 2) (N := 21) (fun n => ![v0, v1, v2, v3, v4, v5, v6, v7, v8, v9, v10, v11, v12, v13, v14, v15, v16, v17, v18, v19, v20] n) h rfl rfl
    (ix2 k c) k rfl (ix2 0 c) (fun b hb => match b, hb with
      | ⟨0, _⟩, hb => absurd rfl hb
      | ⟨1, _⟩, _ => rfl)

/-- The same bin spelt in pieces. -/
theorem pay15_eq (v : Vec Ideal S1x16x16x512 .f32) : k0_pay15 (F := Ideal) (k0_pay13 v) (k0_pay14 v) = k0_pay9 v := rfl
theorem pay21_eq (v : Vec Ideal S1x16x16x512 .f32) : k0_pay21 (F := Ideal) (k0_pay19 v) (k0_pay20 v) = k0_pay9 v := rfl

theorem pay37_eq (v : Vec Ideal S1x64x64x512 .f32) : k0_pay37 (F := Ideal) (k0_pay35 v) (k0_pay36 v) = k0_pay4 v := rfl
theorem pay43_eq (v : Vec Ideal S1x32x32x512 .f32) :
    k0_pay43 (F := Ideal) (k0_pay41 v) (k0_pay42 v) (Scalar.ofBits .f32 0x3A800000#32) = k0_pay5 v := rfl
theorem pay59_eq (v : Vec Ideal S1x16x16x512 .f32) : k0_pay59 (F := Ideal) (k0_pay57 v) (k0_pay58 v) = k0_pay9 v := rfl
theorem pay1_eq (v : Vec Ideal S1x16x16x512 .f32) :
    shapeCast S1x512 (k0_pay1 (F := Ideal) (k0_pay63 v) (k0_pay64 v)) Gen.shapeCasts_S512_S1x512 = k0_pay9 v := rfl

/-- The same with each row's value at (0, c) named: if row i at (0, c) is `g i`, the join at (k, c) is `g k`. -/
theorem rows21_of (v0 v1 v2 v3 v4 v5 v6 v7 v8 v9 v10 v11 v12 v13 v14 v15 v16 v17 v18 v19 v20 : FVec Ideal S1x512 .f32)
    (h : Shape.Concatenates (([⟨S1x512, v0⟩, ⟨S1x512, v1⟩, ⟨S1x512, v2⟩, ⟨S1x512, v3⟩, ⟨S1x512, v4⟩, ⟨S1x512, v5⟩, ⟨S1x512, v6⟩, ⟨S1x512, v7⟩, ⟨S1x512, v8⟩, ⟨S1x512, v9⟩, ⟨S1x512, v10⟩, ⟨S1x512, v11⟩, ⟨S1x512, v12⟩, ⟨S1x512, v13⟩, ⟨S1x512, v14⟩, ⟨S1x512, v15⟩, ⟨S1x512, v16⟩, ⟨S1x512, v17⟩, ⟨S1x512, v18⟩, ⟨S1x512, v19⟩, ⟨S1x512, v20⟩] : List ((s : Shape) × (s.Idx → Ideal .f32))).map (·.1)) S21x512 0)
    (g : Fin 21 → EReal) (c : Fin 512) (e0 : v0 (ix2 0 c) = g 0) (e1 : v1 (ix2 0 c) = g 1) (e2 : v2 (ix2 0 c) = g 2) (e3 : v3 (ix2 0 c) = g 3) (e4 : v4 (ix2 0 c) = g 4) (e5 : v5 (ix2 0 c) = g 5) (e6 : v6 (ix2 0 c) = g 6) (e7 : v7 (ix2 0 c) = g 7) (e8 : v8 (ix2 0 c) = g 8) (e9 : v9 (ix2 0 c) = g 9) (e10 : v10 (ix2 0 c) = g 10) (e11 : v11 (ix2 0 c) = g 11) (e12 : v12 (ix2 0 c) = g 12) (e13 : v13 (ix2 0 c) = g 13) (e14 : v14 (ix2 0 c) = g 14) (e15 : v15 (ix2 0 c) = g 15) (e16 : v16 (ix2 0 c) = g 16) (e17 : v17 (ix2 0 c) = g 17) (e18 : v18 (ix2 0 c) = g 18) (e19 : v19 (ix2 0 c) = g 19) (e20 : v20 (ix2 0 c) = g 20) (k : Fin 21) :
    concatenate S21x512 0 [⟨S1x512, v0⟩, ⟨S1x512, v1⟩, ⟨S1x512, v2⟩, ⟨S1x512, v3⟩, ⟨S1x512, v4⟩, ⟨S1x512, v5⟩, ⟨S1x512, v6⟩, ⟨S1x512, v7⟩, ⟨S1x512, v8⟩, ⟨S1x512, v9⟩, ⟨S1x512, v10⟩, ⟨S1x512, v11⟩, ⟨S1x512, v12⟩, ⟨S1x512, v13⟩, ⟨S1x512, v14⟩, ⟨S1x512, v15⟩, ⟨S1x512, v16⟩, ⟨S1x512, v17⟩, ⟨S1x512, v18⟩, ⟨S1x512, v19⟩, ⟨S1x512, v20⟩] h (ix2 k c) = g k := by
  rw [rows21]
  fin_cases k <;> assumption

/-- The store of the block's first batch entry. -/
theorem piece0 (x0 : Vec Ideal S2x64x64x512 .f32) (x : r0_21.shape.Idx) :
    (k0_pay33 (k0_pay4 (View.ld x0 r0_0)) (k0_pay5 (View.ld x0 r0_1)) (k0_pay6 (View.ld x0 r0_2)) (k0_pay7 (View.ld x0 r0_3)) (k0_pay8 (View.ld x0 r0_4)) (k0_pay9 (View.ld x0 r0_5)) (k0_pay10 (View.ld x0 r0_6)) (k0_pay11 (View.ld x0 r0_7)) (k0_pay12 (View.ld x0 r0_8)) (k0_pay15 (k0_pay13 (View.ld x0 r0_9)) (k0_pay14 (View.ld x0 r0_9))) (k0_pay16 (View.ld x0 r0_10)) (k0_pay17 (View.ld x0 r0_11)) (k0_pay21 (k0_pay19 (View.ld x0 r0_12)) (k0_pay20 (View.ld x0 r0_12))) (k0_pay22 (View.ld x0 r0_13)) (k0_pay23 (View.ld x0 r0_14)) (k0_pay27 (k0_pay25 (View.ld x0 r0_15)) (k0_pay26 (View.ld x0 r0_15))) (k0_pay28 (View.ld x0 r0_16)) (k0_pay29 (View.ld x0 r0_17)) (k0_pay31 (View.ld x0 r0_18)) (k0_pay32 (View.ld x0 r0_18)) (View.ld x0 r0_19) (View.ld x0 r0_20) : Vec Ideal S1x21x512 .f32) x = binsArr x0 (r0_21.emb x) := by
  have hx0 : x 0 = (0 : Fin 1) := Fin.ext (by have h : (x 0).val < 1 := (x 0).isLt; show (x 0).val = 0; omega)
  obtain ⟨k, c, rfl⟩ : ∃ (k : Fin 21) (c : Fin 512), x = ix3 0 k c :=
    ⟨x 1, x 2, (eq_ix3 x).trans (by rw [hx0]; rfl)⟩
  have hemb : r0_21.emb (ix3 (0 : Fin 1) k c) = ix3 (0 : Fin 2) k c := by
    funext a; apply Fin.ext
    match a with
    | ⟨0, _⟩ => show 0 + 1 * ((0 : Fin 1) : Nat) = ((0 : Fin 2) : Nat); simp
    | ⟨1, _⟩ => show 0 + 1 * k.val = k.val; omega
    | ⟨2, _⟩ => show 0 + 1 * c.val = c.val; omega
  rw [hemb]
  show _ = bins x0 (0 : Fin 2) k c
  unfold k0_pay33
  dsimp only
  refine (shapeCast_addUnit_apply ![21, 512] _ _ (ix3 0 k c)).trans ?_
  have hi : (fun a : Fin 2 => (ix3 (0 : Fin 1) k c : (⟨3, ![1, 21, 512]⟩ : Shape).Idx) a.succ) = ix2 k c := by
    funext a; match a with | ⟨0, _⟩ => rfl | ⟨1, _⟩ => rfl
  rw [hi]
  refine rows21_of _ _ _ _ _ _ _ _ _ _ _ _ _ _ _ _ _ _ _ _ _ _ (fun k => bins x0 (0 : Fin 2) k c) c ?_ ?_ ?_ ?_ ?_ ?_ ?_ ?_ ?_ ?_ ?_ ?_ ?_ ?_ ?_ ?_ ?_ ?_ ?_ ?_ ?_ k
  · exact (case64 x0 _ _ _ _ _ (by rfl) c).trans (bins_first x0 _ _ (by decide) c).symm
  · exact (case32 x0 _ _ _ _ _ (by rfl) c).trans (bins_second x0 _ _ (by decide) (by decide) c).symm
  · exact (case32 x0 _ _ _ _ _ (by rfl) c).trans (bins_second x0 _ _ (by decide) (by decide) c).symm
  · exact (case32 x0 _ _ _ _ _ (by rfl) c).trans (bins_second x0 _ _ (by decide) (by decide) c).symm
  · exact (case32 x0 _ _ _ _ _ (by rfl) c).trans (bins_second x0 _ _ (by decide) (by decide) c).symm
  · exact (case16 x0 _ _ _ _ _ (by rfl) c).trans (bins_third x0 _ _ (by decide) c).symm
  · exact (case16 x0 _ _ _ _ _ (by rfl) c).trans (bins_third x0 _ _ (by decide) c).symm
  · exact (case16 x0 _ _ _ _ _ (by rfl) c).trans (bins_third x0 _ _ (by decide) c).symm
  · exact (case16 x0 _ _ _ _ _ (by rfl) c).trans (bins_third x0 _ _ (by decide) c).symm
  · exact ((congrFun (pay15_eq _) _).trans (case16 x0 _ _ _ _ _ (by rfl) c)).trans (bins_third x0 _ _ (by decide) c).symm
  · exact (case16 x0 _ _ _ _ _ (by rfl) c).trans (bins_third x0 _ _ (by decide) c).symm
  · exact (case16 x0 _ _ _ _ _ (by rfl) c).trans (bins_third x0 _ _ (by decide) c).symm
  · exact ((congrFun (pay21_eq _) _).trans (case16 x0 _ _ _ _ _ (by rfl) c)).trans (bins_third x0 _ _ (by decide) c).symm
  · exact (case16 x0 _ _ _ _ _ (by rfl) c).trans (bins_third x0 _ _ (by decide) c).symm
  · exact (case16 x0 _ _ _ _ _ (by rfl) c).trans (bins_third x0 _ _ (by decide) c).symm
  · exact (case16 x0 _ _ _ _ _ (by rfl) c).trans (bins_third x0 _ _ (by decide) c).symm
  · exact (case16 x0 _ _ _ _ _ (by rfl) c).trans (bins_third x0 _ _ (by decide) c).symm
  · exact (case16 x0 _ _ _ _ _ (by rfl) c).trans (bins_third x0 _ _ (by decide) c).symm
  · exact (case16 x0 _ _ _ _ _ (by rfl) c).trans (bins_third x0 _ _ (by decide) c).symm
  · exact (case16 x0 _ _ _ _ _ (by rfl) c).trans (bins_third x0 _ _ (by decide) c).symm
  · exact (case16 x0 _ _ _ _ _ (by rfl) c).trans (bins_third x0 _ _ (by decide) c).symm

/-- The store of the block's second batch entry. -/
theorem piece1 (x0 : Vec Ideal S2x64x64x512 .f32) (x : r0_43.shape.Idx) :
    (k0_pay3 (k0_pay2 (k0_pay37 (k0_pay35 (View.ld x0 r0_22)) (k0_pay36 (View.ld x0 r0_22))) (k0_pay38 (View.ld x0 r0_23)) (k0_pay39 (View.ld x0 r0_24)) (k0_pay43 (k0_pay41 (View.ld x0 r0_25)) (k0_pay42 (View.ld x0 r0_25)) (Scalar.ofBits .f32 0x3A800000#32)) (k0_pay44 (View.ld x0 r0_26)) (k0_pay45 (View.ld x0 r0_27)) (k0_pay47 (k0_pay46 (View.ld x0 r0_28))) (k0_pay48 (View.ld x0 r0_29)) (k0_pay49 (View.ld x0 r0_30)) (k0_pay50 (View.ld x0 r0_31)) (k0_pay51 (View.ld x0 r0_32)) (k0_pay52 (View.ld x0 r0_33)) (k0_pay53 (View.ld x0 r0_34)) (k0_pay54 (View.ld x0 r0_35)) (k0_pay55 (View.ld x0 r0_36)) (k0_pay56 (View.ld x0 r0_37)) (k0_pay59 (k0_pay57 (View.ld x0 r0_38)) (k0_pay58 (View.ld x0 r0_38))) (k0_pay60 (View.ld x0 r0_39)) (k0_pay61 (View.ld x0 r0_40)) (k0_pay1 (k0_pay63 (View.ld x0 r0_41)) (k0_pay64 (View.ld x0 r0_41))) (View.ld x0 r0_42)) : Vec Ideal S1x21x512 .f32) x = binsArr x0 (r0_43.emb x) := by
  have hx0 : x 0 = (0 : Fin 1) := Fin.ext (by have h : (x 0).val < 1 := (x 0).isLt; show (x 0).val = 0; omega)
  obtain ⟨k, c, rfl⟩ : ∃ (k : Fin 21) (c : Fin 512), x = ix3 0 k c :=
    ⟨x 1, x 2, (eq_ix3 x).trans (by rw [hx0]; rfl)⟩
  have hemb : r0_43.emb (ix3 (0 : Fin 1) k c) = ix3 (1 : Fin 2) k c := by
    funext a; apply Fin.ext
    match a with
    | ⟨0, _⟩ => show 1 + 1 * ((0 : Fin 1) : Nat) = ((1 : Fin 2) : Nat); simp
    | ⟨1, _⟩ => show 0 + 1 * k.val = k.val; omega
    | ⟨2, _⟩ => show 0 + 1 * c.val = c.val; omega
  rw [hemb]
  show _ = bins x0 (1 : Fin 2) k c
  unfold k0_pay3 k0_pay2
  dsimp only
  refine (shapeCast_addUnit_apply ![21, 512] _ _ (ix3 0 k c)).trans ?_
  have hi : (fun a : Fin 2 => (ix3 (0 : Fin 1) k c : (⟨3, ![1, 21, 512]⟩ : Shape).Idx) a.succ) = ix2 k c := by
    funext a; match a with | ⟨0, _⟩ => rfl | ⟨1, _⟩ => rfl
  rw [hi]
  refine rows21_of _ _ _ _ _ _ _ _ _ _ _ _ _ _ _ _ _ _ _ _ _ _ (fun k => bins x0 (1 : Fin 2) k c) c ?_ ?_ ?_ ?_ ?_ ?_ ?_ ?_ ?_ ?_ ?_ ?_ ?_ ?_ ?_ ?_ ?_ ?_ ?_ ?_ ?_ k
  · exact ((congrFun (pay37_eq _) _).trans (case64 x0 _ _ _ _ _ (by rfl) c)).trans (bins_first x0 _ _ (by decide) c).symm
  · exact (case32 x0 _ _ _ _ _ (by rfl) c).trans (bins_second x0 _ _ (by decide) (by decide) c).symm
  · exact (case32 x0 _ _ _ _ _ (by rfl) c).trans (bins_second x0 _ _ (by decide) (by decide) c).symm
  · exact ((congrFun (pay43_eq _) _).trans (case32 x0 _ _ _ _ _ (by rfl) c)).trans (bins_second x0 _ _ (by decide) (by decide) c).symm
  · exact (case32 x0 _ _ _ _ _ (by rfl) c).trans (bins_second x0 _ _ (by decide) (by decide) c).symm
  · exact (case16 x0 _ _ _ _ _ (by rfl) c).trans (bins_third x0 _ _ (by decide) c).symm
  · exact (case16 x0 _ _ _ _ _ (by rfl) c).trans (bins_third x0 _ _ (by decide) c).symm
  · exact (case16 x0 _ _ _ _ _ (by rfl) c).trans (bins_third x0 _ _ (by decide) c).symm
  · exact (case16 x0 _ _ _ _ _ (by rfl) c).trans (bins_third x0 _ _ (by decide) c).symm
  · exact (case16 x0 _ _ _ _ _ (by rfl) c).trans (bins_third x0 _ _ (by decide) c).symm
  · exact (case16 x0 _ _ _ _ _ (by rfl) c).trans (bins_third x0 _ _ (by decide) c).symm
  · exact (case16 x0 _ _ _ _ _ (by rfl) c).trans (bins_third x0 _ _ (by decide) c).symm
  · exact (case16 x0 _ _ _ _ _ (by rfl) c).trans (bins_third x0 _ _ (by decide) c).symm
  · exact (case16 x0 _ _ _ _ _ (by rfl) c).trans (bins_third x0 _ _ (by decide) c).symm
  · exact (case16 x0 _ _ _ _ _ (by rfl) c).trans (bins_third x0 _ _ (by decide) c).symm
  · exact (case16 x0 _ _ _ _ _ (by rfl) c).trans (bins_third x0 _ _ (by decide) c).symm
  · exact ((congrFun (pay59_eq _) _).trans (case16 x0 _ _ _ _ _ (by rfl) c)).trans (bins_third x0 _ _ (by decide) c).symm
  · exact (case16 x0 _ _ _ _ _ (by rfl) c).trans (bins_third x0 _ _ (by decide) c).symm
  · exact (case16 x0 _ _ _ _ _ (by rfl) c).trans (bins_third x0 _ _ (by decide) c).symm
  · exact ((congrFun (pay1_eq _) _).trans (case16 x0 _ _ _ _ _ (by rfl) c)).trans (bins_third x0 _ _ (by decide) c).symm
  · exact (case16 x0 _ _ _ _ _ (by rfl) c).trans (bins_third x0 _ _ (by decide) c).symm

theorem block_eq (x0 : Vec Ideal S2x64x64x512 .f32) :
    out0_1 (F := Ideal) x0 = Cert.Pyramid.binsArr x0 := by
  funext y
  unfold out0_1
  refine View.canon_apply_of_pieces (Val := Elt Ideal) (S := S2x21x512) (e := .f32) (binsArr x0) _ ?_ y (cover0_1 _ _ y)
  intro p hp x
  simp only [List.mem_cons, List.mem_nil_iff, or_false] at hp
  rcases hp with rfl | rfl
  · exact piece1 x0 x
  · exact piece0 x0 x

end Cert.KernelIdeal.Pyramid

end
-- ==== Proof.KernelFlat.lean ====
/-
  The kernel's result array: grid point t writes the bins of batch entries 2t and 2t+1, the sixteen blocks tile the
  [32, 21, 512] array, and the reshape after the call lays it out flat.
-/
import proofs.«109706_j40166534152820_1_alg».proof.Proof.KernelBlock
import Idealize.ShloMosaic.Lib.Pipeline.Value

noncomputable section

namespace Cert.KernelIdeal.Pyramid

open Cert.KernelIdeal Cert.KernelIdeal.Gen Idealize.ShloMosaic Idealize.ShloMosaic.ValueIdx Idealize.SL.Sem
open Idealize.ShloMosaic.Pipeline (Dat)

section Blocks

variable (m : (ℓ : Loc nD τ sig) → Buf (Elt Ideal) ℓ)

/-- The index maps over the grid: point t's input block is block t of the batch axis, and so is its output block. -/
theorem idx_facts : ∀ t : Fin cfg0.N, win0_0.index t (0 : Fin 4) = t.val ∧ win0_0.index t (1 : Fin 4) = 0
    ∧ win0_0.index t (2 : Fin 4) = 0 ∧ win0_0.index t (3 : Fin 4) = 0
    ∧ win0_1.index t (0 : Fin 3) = t.val ∧ win0_1.index t (1 : Fin 3) = 0 ∧ win0_1.index t (2 : Fin 3) = 0 :=
  (by decide +kernel : ∀ t : Fin grid0.N, _)

/-- The whole-array function: the bins of the argument as the region finds it. -/
abbrev G (c : Dev nD) : S32x21x512.Idx → EReal := Cert.Pyramid.binsArr (V m c main_arg0)

/-- The bins of a block of two batch entries are the bins of the whole map at those entries. -/
theorem bins_of_block (x : S32x64x64x512.Idx → EReal) (x0 : S2x64x64x512.Idx → EReal) (j : S2x21x512.Idx) (i : S32x21x512.Idx)
    (h1 : (i 1).val = (j 1).val) (h2 : (i 2).val = (j 2).val)
    (h : ∀ (r s : Fin 64) (ch : Fin 512), x0 (ix4 (j 0) r s ch) = x (ix4 (i 0) r s ch)) :
    Cert.Pyramid.binsArr x0 j = Cert.Pyramid.binsArr x i := by
  unfold Cert.Pyramid.binsArr
  have e1 : i 1 = j 1 := Fin.ext h1
  have e2 : i 2 = j 2 := Fin.ext h2
  rw [e1, e2]
  exact Cert.Pyramid.bins_congr x0 x (j 0) (i 0) (j 2) (fun r s => h r s (j 2)) (j 1)

/-- What point t writes back is block t of the whole-array function: a bin of batch entry 2t + b' reads only that
    entry, which is entry b' of the point's input block. -/
theorem flushed_eq (c : Dev nD) (t : Fin cfg0.N) :
    (dats m 0 c).flushed 1 t = ((cfg0.win 1).blk t).view.read (Elt Ideal) (G m c) := by
  show (cfg0.win 1).cut (grid0.coords t) ((dats m 0 c).after 1 t) = _
  rw [after0_1, block_eq]
  obtain ⟨e0, e1, e2, e3, f0, f1, f2⟩ := idx_facts t
  funext j
  show Cert.Pyramid.binsArr (iblk m c 0 t) j = Cert.Pyramid.binsArr (V m c main_arg0) (((cfg0.win 1).blk t).view.emb j)
  refine bins_of_block (V m c main_arg0) (iblk m c 0 t) j (((cfg0.win 1).blk t).view.emb j) ?_ ?_ ?_
  · show win0_1.index t (1 : Fin 3) * 21 + 1 * (j 1).val = (j 1).val
    omega
  · show win0_1.index t (2 : Fin 3) * 512 + 1 * (j 2).val = (j 2).val
    omega
  · intro r s ch
    unfold iblk
    rw [View.read_apply]
    show V m c main_arg0 (((cfg0.win 0).blk t).view.emb (ix4 (j 0) r s ch)) = V m c main_arg0 (ix4 ((((cfg0.win 1).blk t).view.emb j) 0) r s ch)
    refine congrArg (V m c main_arg0) (funext fun a => Fin.ext ?_)
    match a with
    | ⟨0, _⟩ => show win0_0.index t (0 : Fin 4) * 2 + 1 * (j 0).val = win0_1.index t (0 : Fin 3) * 2 + 1 * (j 0).val; omega
    | ⟨1, _⟩ => show win0_0.index t (1 : Fin 4) * 64 + 1 * r.val = r.val; omega
    | ⟨2, _⟩ => show win0_0.index t (2 : Fin 4) * 64 + 1 * s.val = s.val; omega
    | ⟨3, _⟩ => show win0_0.index t (3 : Fin 4) * 512 + 1 * ch.val = ch.val; omega

/-- An index of the array is in point t's block iff each coordinate is in the block's range on its axis. -/
theorem mem_blk (t : Fin cfg0.N) (i : S32x21x512.Idx) :
    i ∈ ((cfg0.win 1).blk t).view.set ↔ ∀ a : Fin 3, win0_1.index t a * S2x21x512.size a ≤ (i a).val ∧ (i a).val < win0_1.index t a * S2x21x512.size a + S2x21x512.size a := by
  show i ∈ ((View.whole main_v0).slice (win0_1.rect t)).set ↔ _
  rw [View.set_slice_whole, Rect.mem_set_unit]
  exact Iff.rfl

/-- The sixteen blocks cover the array: batch entry b is in the block of point b / 2. -/
theorem cover (i : S32x21x512.Idx) : ∃ t : Fin cfg0.N, (cfg0.win 1).flush t = true ∧ i ∈ ((cfg0.win 1).blk t).view.set := by
  have hi0 : (i 0).val < 32 := (i 0).isLt
  have hi1 : (i 1).val < 21 := (i 1).isLt
  have hi2 : (i 2).val < 512 := (i 2).isLt
  have hN : cfg0.N = 16 := N_0
  refine ⟨⟨(i 0).val / 2, by omega⟩, flush0_1 _, ?_⟩
  rw [mem_blk]
  obtain ⟨e0, e1, e2, e3, f0, f1, f2⟩ := idx_facts ⟨(i 0).val / 2, by omega⟩
  intro a
  match a with
  | ⟨0, _⟩ => show win0_1.index _ (0 : Fin 3) * 2 ≤ (i 0).val ∧ (i 0).val < win0_1.index _ (0 : Fin 3) * 2 + 2; rw [f0]; show (i 0).val / 2 * 2 ≤ (i 0).val ∧ (i 0).val < (i 0).val / 2 * 2 + 2; omega
  | ⟨1, _⟩ => show win0_1.index _ (1 : Fin 3) * 21 ≤ (i 1).val ∧ (i 1).val < win0_1.index _ (1 : Fin 3) * 21 + 21; rw [f1]; omega
  | ⟨2, _⟩ => show win0_1.index _ (2 : Fin 3) * 512 ≤ (i 2).val ∧ (i 2).val < win0_1.index _ (2 : Fin 3) * 512 + 512; rw [f2]; omega

/-- The result array of the call after the run: the bins of the argument. -/
theorem final (c : Dev nD) : (dats m 0 c).arrAt 1 cfg0.N = G m c :=
  (dats m 0 c).arrAt_eq_of_cover 1 (G m c) (fun t _ => flushed_eq m c t) cover

/-- The [32, 21, 512] array of bins laid out as [32, 21 · 512] is the flat result: position j of a row is bin j / 512
    at channel j % 512 (both layouts are row-major). -/
theorem flat_of_reshape (x : S32x64x64x512.Idx → EReal) (j : S32x10752.Idx) :
    shapeCast S32x10752 (Cert.Pyramid.binsArr x) shapeCasts_S32x21x512_S32x10752 j = Cert.Pyramid.flat x j := by
  have hj1 : (j 1).val < 10752 := (j 1).isLt
  refine (shapeCast_apply (Cert.Pyramid.binsArr x) shapeCasts_S32x21x512_S32x10752 j
    (ix3 (j 0) ⟨(j 1).val / 512, by omega⟩ ⟨(j 1).val % 512, Nat.mod_lt _ (by decide)⟩) ?_).trans rfl
  rw [Shape.rowMajor_val_three, Shape.rowMajor_val_two]
  show ((j 0).val * 21 + (j 1).val / 512) * 512 + (j 1).val % 512 = (j 0).val * 10752 + (j 1).val
  omega

/-- The reshape after the call, applied to what the region leaves: the flat array of bins of the argument. -/
theorem tail_eq (c : Dev nD) : Pipeline.afterTail₀ cfgs (dats m) 0 (V0 m) [hostOps1] c main_v1
    = Cert.Pyramid.flat (m ((c.tc : Thread nD τ).loc main_arg0)) := by
  unfold Pipeline.afterTail₀
  show StableHlo.after hostOps1 _ (Proc.devRef .tc main_v1) = _
  after_results
  have e : Pipeline.withArrays (cfgs 0).spec c (V0 m c) (fun w => (dats m 0 c).arrAt w (cfgs 0).N) (Proc.tc.devRef main_v0)
      = Cert.Pyramid.binsArr (m ((c.tc : Thread nD τ).loc main_arg0)) :=
    (Pipeline.withArrays_arr spec0 launch0.win.arr_inj c (V0 m c) (fun w => (dats m 0 c).arrAt w (cfgs 0).N) 1).trans (final m c)
  funext j
  show shapeCast S32x10752 (Pipeline.withArrays (cfgs 0).spec c (V0 m c) (fun w => (dats m 0 c).arrAt w (cfgs 0).N)
            (Proc.tc.devRef main_v0)) shapeCasts_S32x21x512_S32x10752 j = _
  rw [e]
  exact flat_of_reshape (m ((c.tc : Thread nD τ).loc main_arg0)) j

/-- The result buffer of the reshape is unscoped and is no array of the call. -/
theorem main_v1_rest : main_v1 ∈ Pipeline.restRefs sig (cfgs 0).spec :=
  Pipeline.mem_restRefs_of main_v1 rfl (by decide)

end Blocks

/-- The kernel's run with its result named as the flat array of bins of its argument. -/
theorem run_flat (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v1) = Cert.Pyramid.flat (m ((c.tc : Thread nD τ).loc main_arg0))
      ∧ r.2.mem ((c.tc : Thread nD τ).loc main_arg0) = m ((c.tc : Thread nD τ).loc main_arg0) :=
  (θ_run defs _ _).mono (fun r h c => ⟨((h c).2 main_v1 main_v1_rest).trans (tail_eq m c),
      ((h c).1 0).trans (((dats m 0 c).arrAt_in 0 rfl _).trans ((A_eq m c 0).trans (V_main_arg0 m c)))⟩)
    (run_main m ρ)

end Cert.KernelIdeal.Pyramid

end
-- ==== Proof.LibNary3.lean ====
/-
  A straight-line operation over a literal family of THREE references (a join of three computed operands): its result,
  with each operand's contents read at its own reference rather than under a binder over the family's index.
-/
import Idealize.ShloMosaic.Lib.StableHlo.Run

noncomputable section

namespace Idealize.ShloMosaic.StableHlo

open Idealize.SL.Sem

variable {τ : Topo} {sig : RefSig} {Val : EltTy → Type}

section Nary3

variable {x a b y : Ref sig .tc}

/-- `nary` over a literal family of three references: the result is the function's value at the family whose entry `k`
    is the valuation at the `k`-th reference itself, written `Fin.cons (F ↑x) (Fin.cons (F ↑a) (Fin.cons (F ↑b) …))` in
    place of `fun k => F ↑(![x, a, b] k)`.  Each operand's contents then stand at a literal reference, where a further
    result lemma applies; under the binder `![x, a, b] k` is no literal.  The two families agree entry by entry. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- `nary3_result` with the result reference kept out of the simplifier's index, for use as a `simp` lemma. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

end Nary3

end Idealize.ShloMosaic.StableHlo

end
-- ==== Proof.RefLevelDefs.lean ====
/-
  The reference's three levels as terms: per level the 6-D reshape of the map, its maximum and its sum over the two
  window axes, the sum divided by the window's size, the two added; and the whole result, the three levels transposed
  (bin column outer), flattened and joined along the second axis.
-/
import proofs.«109706_j40166534152820_1_alg».proof.Proof.Gen.ReferenceIdeal
import proofs.«109706_j40166534152820_1_alg».proof.Proof.Spec

noncomputable section

namespace Cert.ReferenceIdeal.Pyramid

open Cert.ReferenceIdeal Cert.ReferenceIdeal.Gen Idealize.ShloMosaic Idealize.SL.Sem

variable {F : FTy → Type} [FloatOps F]

/-- The 1×1 level: maximum plus sum / 4096 of the whole map, at [32, 1, 1, 512]. -/
def refLevel1 (x : (⟨S32x64x64x512, .f32⟩ : BufTy).Contents (Elt F)) : (⟨S32x1x1x512, .f32⟩ : BufTy).Contents (Elt F) :=
  addf (Host.reduce FloatOps.maximumf (shapeCast _ x shapeCasts_S32x64x64x512_S32x1x64x1x64x512) (constant S_ .f32 0xFF800000#32) reducesTo_S32x1x64x1x64x512_S32x1x1x512_d2_4 h_S_)
    (Host.divf (Host.reduceAdd (shapeCast _ x shapeCasts_S32x64x64x512_S32x1x64x1x64x512) (constant S_ .f32 0x00000000#32) reducesTo_S32x1x64x1x64x512_S32x1x1x512_d2_4 h_S_)
      (broadcastInDim S32x1x1x512 ![] bcast_S_S32x1x1x512 (constant S_ .f32 0x45800000#32)))

/-- The 2×2 level: maximum plus sum / 1024 of each 32×32 window, at [32, bin row, bin column, 512]. -/
def refLevel2 (x : (⟨S32x64x64x512, .f32⟩ : BufTy).Contents (Elt F)) : (⟨S32x2x2x512, .f32⟩ : BufTy).Contents (Elt F) :=
  addf (Host.reduce FloatOps.maximumf (shapeCast _ x shapeCasts_S32x64x64x512_S32x2x32x2x32x512) (constant S_ .f32 0xFF800000#32) reducesTo_S32x2x32x2x32x512_S32x2x2x512_d2_4 h_S_)
    (Host.divf (Host.reduceAdd (shapeCast _ x shapeCasts_S32x64x64x512_S32x2x32x2x32x512) (constant S_ .f32 0x00000000#32) reducesTo_S32x2x32x2x32x512_S32x2x2x512_d2_4 h_S_)
      (broadcastInDim S32x2x2x512 ![] bcast_S_S32x2x2x512 (constant S_ .f32 0x44800000#32)))

/-- The 4×4 level: maximum plus sum / 256 of each 16×16 window, at [32, bin row, bin column, 512]. -/
def refLevel4 (x : (⟨S32x64x64x512, .f32⟩ : BufTy).Contents (Elt F)) : (⟨S32x4x4x512, .f32⟩ : BufTy).Contents (Elt F) :=
  addf (Host.reduce FloatOps.maximumf (shapeCast _ x shapeCasts_S32x64x64x512_S32x4x16x4x16x512) (constant S_ .f32 0xFF800000#32) reducesTo_S32x4x16x4x16x512_S32x4x4x512_d2_4 h_S_)
    (Host.divf (Host.reduceAdd (shapeCast _ x shapeCasts_S32x64x64x512_S32x4x16x4x16x512) (constant S_ .f32 0x00000000#32) reducesTo_S32x4x16x4x16x512_S32x4x4x512_d2_4 h_S_)
      (broadcastInDim S32x4x4x512 ![] bcast_S_S32x4x4x512 (constant S_ .f32 0x43800000#32)))

/-- The reference's result: each level with its two bin axes swapped, flattened to [32, p·p·512], the three joined. -/
def refFlat (x : (⟨S32x64x64x512, .f32⟩ : BufTy).Contents (Elt F)) : (⟨S32x10752, .f32⟩ : BufTy).Contents (Elt F) :=
  concatenate S32x10752 1
    [⟨S32x512, shapeCast _ (transpose S32x1x1x512 [0, 2, 1, 3] (refLevel1 x) transposes_S32x1x1x512_S32x1x1x512_0_2_1_3) shapeCasts_S32x1x1x512_S32x512⟩,
     ⟨S32x2048, shapeCast _ (transpose S32x2x2x512 [0, 2, 1, 3] (refLevel2 x) transposes_S32x2x2x512_S32x2x2x512_0_2_1_3) shapeCasts_S32x2x2x512_S32x2048⟩,
     ⟨S32x8192, shapeCast _ (transpose S32x4x4x512 [0, 2, 1, 3] (refLevel4 x) transposes_S32x4x4x512_S32x4x4x512_0_2_1_3) shapeCasts_S32x4x4x512_S32x8192⟩]
    concatenates_S32x512_S32x2048_S32x8192_S32x10752_d1

end Cert.ReferenceIdeal.Pyramid

end
-- ==== Proof.RefLevel.lean ====
/-
  Each level of the reference read at an index: the maximum and the sum over the two window axes of the 6-D reshape are
  the supremum and the sum over the window's rows and columns, and the quotient by the window's size is the product
  with its reciprocal.
-/
import proofs.«109706_j40166534152820_1_alg».proof.Proof.RefLevelDefs
import Idealize.ShloMosaic.PureOps.Ideal.Laws
import Idealize.ShloMosaic.Lib.ValueIdxRank6
import Idealize.ShloMosaic.Lib.Pipeline.Value

noncomputable section

namespace Cert.ReferenceIdeal.Pyramid

open Cert.ReferenceIdeal Cert.ReferenceIdeal.Gen Idealize.ShloMosaic Idealize.ShloMosaic.ValueIdx Idealize.SL.Sem

/-- The fold of the maximum from `⊥` over a finite set is the set's supremum. -/
theorem fold_maximumf_eq_sup {ι : Type} (s : Finset ι) (f : ι → EReal) :
    s.fold (FloatOps.maximumf (F := Ideal) (φ := .f32)) (⊥ : EReal) f = s.sup f := by
  induction s using Finset.cons_induction with
  | empty => simp
  | cons a s ha ih => rw [Finset.fold_cons, Finset.sup_cons, ih]; exact le_antisymm (max_le le_sup_left le_sup_right) (sup_le (le_max_left _ _) (le_max_right _ _))

section Generic

variable {p w : Nat}

/-- Entry `(r, s)` of the window of bin `(ih, iw)`, as an index of the 6-D reshape. -/
def winIdx (b : Fin 32) (ih iw : Fin p) (c : Fin 512) (q : Fin w × Fin w) :
    (⟨6, ![32, p, w, p, w, 512]⟩ : Shape).Idx := ix6 b ih q.1 iw q.2 c

theorem winIdx_injective (b : Fin 32) (ih iw : Fin p) (c : Fin 512) :
    Function.Injective (winIdx (w := w) b ih iw c) := by
  intro q q' h
  have h2 : q.1 = q'.1 := congrFun h (2 : Fin 6)
  have h4 : q.2 = q'.2 := congrFun h (4 : Fin 6)
  exact Prod.ext h2 h4

/-- The 6-D indices that drop to `(b, ih, iw, c)` are exactly the window's entries. -/
theorem filter_drop_eq_map (hred : (⟨6, ![32, p, w, p, w, 512]⟩ : Shape).ReducesTo [2, 4] ⟨4, ![32, p, p, 512]⟩)
    (b : Fin 32) (ih iw : Fin p) (c : Fin 512) :
    (Finset.univ.filter fun i => hred.drop i = ix4 b ih iw c)
      = Finset.univ.map ⟨winIdx (w := w) b ih iw c, winIdx_injective b ih iw c⟩ := by
  ext i
  simp only [Finset.mem_filter, Finset.mem_univ, true_and, Finset.mem_map, Function.Embedding.coeFn_mk]
  constructor
  · intro h
    have h0 : i 0 = b := congrFun h (0 : Fin 4)
    have h1 : i 1 = ih := congrFun h (1 : Fin 4)
    have h3 : i 3 = iw := congrFun h (2 : Fin 4)
    have h5 : i 5 = c := congrFun h (3 : Fin 4)
    refine ⟨(i 2, i 4), ?_⟩
    funext a
    match a with
    | ⟨0, _⟩ => exact h0.symm
    | ⟨1, _⟩ => exact h1.symm
    | ⟨2, _⟩ => rfl
    | ⟨3, _⟩ => exact h3.symm
    | ⟨4, _⟩ => rfl
    | ⟨5, _⟩ => exact h5.symm
  · rintro ⟨q, rfl⟩
    funext a
    match a with
    | ⟨0, _⟩ => rfl
    | ⟨1, _⟩ => rfl
    | ⟨2, _⟩ => rfl
    | ⟨3, _⟩ => rfl

/-- A level of the reference read at a bin, for any split `64 = p · w`: the maximum and the sum over the two window
    axes of the 6-D reshape are the supremum and the sum over the window, and the quotient by the window's size `k`
    is the product with `1 / k`. -/
theorem level_apply_generic (hpw : p * w = 64) (x : (⟨4, ![32, 64, 64, 512]⟩ : Shape).Idx → EReal)
    (hc : (⟨4, ![32, 64, 64, 512]⟩ : Shape).ShapeCasts ⟨6, ![32, p, w, p, w, 512]⟩)
    (hred : (⟨6, ![32, p, w, p, w, 512]⟩ : Shape).ReducesTo [2, 4] ⟨4, ![32, p, p, 512]⟩)
    (hb : S_.BroadcastsInDim ⟨4, ![32, p, p, 512]⟩ (![] : Fin 0 → Fin 4))
    (kbits : BitVec 32) (k : ℝ) (hk : k ≠ 0) (hkb : Ideal.ofBits .f32 kbits = (k : EReal))
    (b : Fin 32) (ih iw : Fin p) (c : Fin 512) :
    addf (F := Ideal) (Host.reduce FloatOps.maximumf (shapeCast _ x hc) (constant S_ .f32 0xFF800000#32) hred h_S_)
      (Host.divf (Host.reduceAdd (shapeCast _ x hc) (constant S_ .f32 0x00000000#32) hred h_S_)
        (broadcastInDim _ ![] hb (constant S_ .f32 kbits))) (ix4 b ih iw c)
    = Cert.Pyramid.level p w hpw ((1 / k : ℝ) : EReal) x b ih iw c := by
  -- the reshape at a window entry is the map at that entry's row and column
  have hx6 : ∀ q : Fin w × Fin w, shapeCast _ x hc (winIdx b ih iw c q)
      = x (ix4 b ⟨ih.val * w + q.1.val, Cert.Pyramid.win_lt hpw ih q.1⟩
            ⟨iw.val * w + q.2.val, Cert.Pyramid.win_lt hpw iw q.2⟩ c) := by
    intro q
    refine shapeCast_apply x hc _ _ ?_
    rw [Shape.rowMajor_val_four, Shape.rowMajor_val_six]
    show ((b.val * 64 + (ih.val * w + q.1.val)) * 64 + (iw.val * w + q.2.val)) * 512 + c.val
      = ((((b.val * p + ih.val) * w + q.1.val) * p + iw.val) * w + q.2.val) * 512 + c.val
    rw [← hpw]; ring
  have hmax : Host.reduce (FloatOps.maximumf (F := Ideal) (φ := .f32)) (shapeCast _ x hc)
        (constant (F := Ideal) S_ .f32 0xFF800000#32) hred h_S_ (ix4 b ih iw c)
      = Finset.univ.sup fun q : Fin w × Fin w => x (ix4 b ⟨ih.val * w + q.1.val, Cert.Pyramid.win_lt hpw ih q.1⟩
            ⟨iw.val * w + q.2.val, Cert.Pyramid.win_lt hpw iw q.2⟩ c) := by
    rw [Host.reduce_eq_fold, filter_drop_eq_map]
    show Finset.fold _ (Ideal.ofBits .f32 0xFF800000#32) _ _ = _
    rw [Cert.Pyramid.ofBits_negInf, fold_maximumf_eq_sup, Finset.sup_map]
    exact Finset.sup_congr rfl fun q _ => hx6 q
  have hsum : Host.reduceAdd (F := Ideal) (shapeCast _ x hc) (constant S_ .f32 0x00000000#32) hred h_S_ (ix4 b ih iw c)
      = ∑ q : Fin w × Fin w, x (ix4 b ⟨ih.val * w + q.1.val, Cert.Pyramid.win_lt hpw ih q.1⟩
            ⟨iw.val * w + q.2.val, Cert.Pyramid.win_lt hpw iw q.2⟩ c) := by
    show Ideal.hostReduceAdd hred (shapeCast _ x hc) (Ideal.ofBits .f32 0x00000000#32) (ix4 b ih iw c) = _
    unfold Ideal.hostReduceAdd
    rw [Cert.Pyramid.ofBits_zero, zero_add, filter_drop_eq_map, Finset.sum_map]
    exact Finset.sum_congr rfl fun q _ => hx6 q
  show Host.reduce (FloatOps.maximumf (F := Ideal) (φ := .f32)) (shapeCast _ x hc)
        (constant (F := Ideal) S_ .f32 0xFF800000#32) hred h_S_ (ix4 b ih iw c)
      + Ideal.div (Host.reduceAdd (F := Ideal) (shapeCast _ x hc) (constant S_ .f32 0x00000000#32) hred h_S_ (ix4 b ih iw c))
          (Ideal.ofBits .f32 kbits) = _
  rw [hmax, hsum, hkb, Ideal.div_coe hk]
  rfl

end Generic

theorem refLevel1_apply (x : (⟨S32x64x64x512, .f32⟩ : BufTy).Contents (Elt Ideal)) (b : Fin 32) (ih iw : Fin 1) (c : Fin 512) :
    refLevel1 (F := Ideal) x (ix4 b ih iw c) = Cert.Pyramid.level 1 64 rfl ((1 / 4096 : ℝ) : EReal) x b ih iw c :=
  level_apply_generic (p := 1) (w := 64) rfl x shapeCasts_S32x64x64x512_S32x1x64x1x64x512
    reducesTo_S32x1x64x1x64x512_S32x1x1x512_d2_4 bcast_S_S32x1x1x512 0x45800000#32 4096 (by norm_num)
    Cert.Pyramid.ofBits_4096 b ih iw c

theorem refLevel2_apply (x : (⟨S32x64x64x512, .f32⟩ : BufTy).Contents (Elt Ideal)) (b : Fin 32) (ih iw : Fin 2) (c : Fin 512) :
    refLevel2 (F := Ideal) x (ix4 b ih iw c) = Cert.Pyramid.level 2 32 rfl ((1 / 1024 : ℝ) : EReal) x b ih iw c :=
  level_apply_generic (p := 2) (w := 32) rfl x shapeCasts_S32x64x64x512_S32x2x32x2x32x512
    reducesTo_S32x2x32x2x32x512_S32x2x2x512_d2_4 bcast_S_S32x2x2x512 0x44800000#32 1024 (by norm_num)
    Cert.Pyramid.ofBits_1024 b ih iw c

theorem refLevel4_apply (x : (⟨S32x64x64x512, .f32⟩ : BufTy).Contents (Elt Ideal)) (b : Fin 32) (ih iw : Fin 4) (c : Fin 512) :
    refLevel4 (F := Ideal) x (ix4 b ih iw c) = Cert.Pyramid.level 4 16 rfl ((1 / 256 : ℝ) : EReal) x b ih iw c :=
  level_apply_generic (p := 4) (w := 16) rfl x shapeCasts_S32x64x64x512_S32x4x16x4x16x512
    reducesTo_S32x4x16x4x16x512_S32x4x4x512_d2_4 bcast_S_S32x4x4x512 0x43800000#32 256 (by norm_num)
    Cert.Pyramid.ofBits_256 b ih iw c

end Cert.ReferenceIdeal.Pyramid

end
-- ==== Proof.RefFlat.lean ====
/-
  The reference's result is the flat array of bins: the join of the three levels picks a level by the position along the
  second axis, the flattening splits a position into (bin, channel), and the swap of the two bin axes makes the bin
  column the outer one.
-/
import proofs.«109706_j40166534152820_1_alg».proof.Proof.RefRun
import proofs.«109706_j40166534152820_1_alg».proof.Proof.RefLevel
import Idealize.ShloMosaic.Lib.Pipeline.Value

noncomputable section

namespace Cert.ReferenceIdeal.Pyramid

open Cert.ReferenceIdeal Cert.ReferenceIdeal.Gen Idealize.ShloMosaic Idealize.ShloMosaic.ValueIdx Idealize.SL.Sem

/-- A level's bin depends on its row, its column and its channel through their values only. -/
theorem level_congr {p w : Nat} (hpw : p * w = 64) (scale : EReal)
    (x : (⟨S32x64x64x512, .f32⟩ : BufTy).Contents (Elt Ideal)) (b : Fin 32) {ih ih' iw iw' : Fin p} {c c' : Fin 512}
    (h1 : ih.val = ih'.val) (h2 : iw.val = iw'.val) (h3 : c.val = c'.val) :
    Cert.Pyramid.level p w hpw scale x b ih iw c = Cert.Pyramid.level p w hpw scale x b ih' iw' c' := by
  obtain rfl := Fin.ext h1
  obtain rfl := Fin.ext h2
  obtain rfl := Fin.ext h3
  rfl

/-! ## Each level, its bin axes swapped and flattened, read at a position

Position `q` of the flattened `[p (bin column), p (bin row), 512]` block is bin column `q / (p · 512)`, bin row
`q / 512 % p`, channel `q % 512`. -/

theorem piece1_apply (x : (⟨S32x64x64x512, .f32⟩ : BufTy).Contents (Elt Ideal)) (b : Fin 32) (q : Fin 512) :
    shapeCast S32x512 (transpose S32x1x1x512 [0, 2, 1, 3] (refLevel1 (F := Ideal) x) transposes_S32x1x1x512_S32x1x1x512_0_2_1_3)
        shapeCasts_S32x1x1x512_S32x512 (ix2 b q)
      = Cert.Pyramid.level 1 64 rfl ((1 / 4096 : ℝ) : EReal) x b 0 0 q := by
  have hq : q.val < 512 := q.isLt
  have hb : b.val < 32 := b.isLt
  rw [shapeCast_apply _ shapeCasts_S32x1x1x512_S32x512 (ix2 b q) (ix4 b (0 : Fin 1) (0 : Fin 1) q)
    (by rw [Shape.rowMajor_val_four, Shape.rowMajor_val_two]
        show ((b.val * 1 + 0) * 1 + 0) * 512 + q.val = b.val * 512 + q.val
        omega)]
  rw [transpose_apply [0, 2, 1, 3] _ transposes_S32x1x1x512_S32x1x1x512_0_2_1_3 (ix4 b (0 : Fin 1) (0 : Fin 1) q)
    (ix4 b (0 : Fin 1) (0 : Fin 1) q) (fun a => match a with
      | ⟨0, _⟩ => rfl
      | ⟨1, _⟩ => rfl
      | ⟨2, _⟩ => rfl
      | ⟨3, _⟩ => rfl)]
  exact refLevel1_apply x b 0 0 q

theorem piece2_apply (x : (⟨S32x64x64x512, .f32⟩ : BufTy).Contents (Elt Ideal)) (b : Fin 32) (q : Fin 2048) :
    shapeCast S32x2048 (transpose S32x2x2x512 [0, 2, 1, 3] (refLevel2 (F := Ideal) x) transposes_S32x2x2x512_S32x2x2x512_0_2_1_3)
        shapeCasts_S32x2x2x512_S32x2048 (ix2 b q)
      = Cert.Pyramid.level 2 32 rfl ((1 / 1024 : ℝ) : EReal) x b ⟨q.val / 512 % 2, Nat.mod_lt _ (by decide)⟩
          ⟨q.val / 1024, by have := q.isLt; omega⟩ ⟨q.val % 512, Nat.mod_lt _ (by decide)⟩ := by
  have hq : q.val < 2048 := q.isLt
  have hb : b.val < 32 := b.isLt
  rw [shapeCast_apply _ shapeCasts_S32x2x2x512_S32x2048 (ix2 b q)
    (ix4 b (⟨q.val / 1024, by omega⟩ : Fin 2) (⟨q.val / 512 % 2, Nat.mod_lt _ (by decide)⟩ : Fin 2)
      (⟨q.val % 512, Nat.mod_lt _ (by decide)⟩ : Fin 512))
    (by rw [Shape.rowMajor_val_four, Shape.rowMajor_val_two]
        show ((b.val * 2 + q.val / 1024) * 2 + q.val / 512 % 2) * 512 + q.val % 512 = b.val * 2048 + q.val
        omega)]
  rw [transpose_apply [0, 2, 1, 3] _ transposes_S32x2x2x512_S32x2x2x512_0_2_1_3
    (ix4 b (⟨q.val / 1024, by omega⟩ : Fin 2) (⟨q.val / 512 % 2, Nat.mod_lt _ (by decide)⟩ : Fin 2)
      (⟨q.val % 512, Nat.mod_lt _ (by decide)⟩ : Fin 512))
    (ix4 b (⟨q.val / 512 % 2, Nat.mod_lt _ (by decide)⟩ : Fin 2) (⟨q.val / 1024, by omega⟩ : Fin 2)
      (⟨q.val % 512, Nat.mod_lt _ (by decide)⟩ : Fin 512)) (fun a => match a with
      | ⟨0, _⟩ => rfl
      | ⟨1, _⟩ => rfl
      | ⟨2, _⟩ => rfl
      | ⟨3, _⟩ => rfl)]
  exact refLevel2_apply x b _ _ _

theorem piece4_apply (x : (⟨S32x64x64x512, .f32⟩ : BufTy).Contents (Elt Ideal)) (b : Fin 32) (q : Fin 8192) :
    shapeCast S32x8192 (transpose S32x4x4x512 [0, 2, 1, 3] (refLevel4 (F := Ideal) x) transposes_S32x4x4x512_S32x4x4x512_0_2_1_3)
        shapeCasts_S32x4x4x512_S32x8192 (ix2 b q)
      = Cert.Pyramid.level 4 16 rfl ((1 / 256 : ℝ) : EReal) x b ⟨q.val / 512 % 4, Nat.mod_lt _ (by decide)⟩
          ⟨q.val / 2048, by have := q.isLt; omega⟩ ⟨q.val % 512, Nat.mod_lt _ (by decide)⟩ := by
  have hq : q.val < 8192 := q.isLt
  have hb : b.val < 32 := b.isLt
  rw [shapeCast_apply _ shapeCasts_S32x4x4x512_S32x8192 (ix2 b q)
    (ix4 b (⟨q.val / 2048, by omega⟩ : Fin 4) (⟨q.val / 512 % 4, Nat.mod_lt _ (by decide)⟩ : Fin 4)
      (⟨q.val % 512, Nat.mod_lt _ (by decide)⟩ : Fin 512))
    (by rw [Shape.rowMajor_val_four, Shape.rowMajor_val_two]
        show ((b.val * 4 + q.val / 2048) * 4 + q.val / 512 % 4) * 512 + q.val % 512 = b.val * 8192 + q.val
        omega)]
  rw [transpose_apply [0, 2, 1, 3] _ transposes_S32x4x4x512_S32x4x4x512_0_2_1_3
    (ix4 b (⟨q.val / 2048, by omega⟩ : Fin 4) (⟨q.val / 512 % 4, Nat.mod_lt _ (by decide)⟩ : Fin 4)
      (⟨q.val % 512, Nat.mod_lt _ (by decide)⟩ : Fin 512))
    (ix4 b (⟨q.val / 512 % 4, Nat.mod_lt _ (by decide)⟩ : Fin 4) (⟨q.val / 2048, by omega⟩ : Fin 4)
      (⟨q.val % 512, Nat.mod_lt _ (by decide)⟩ : Fin 512)) (fun a => match a with
      | ⟨0, _⟩ => rfl
      | ⟨1, _⟩ => rfl
      | ⟨2, _⟩ => rfl
      | ⟨3, _⟩ => rfl)]
  exact refLevel4_apply x b _ _ _

/-! ## The join read in each of its three ranges -/

/-- Positions below 512 are the 1×1 level's. -/
theorem refFlat_lo (x : (⟨S32x64x64x512, .f32⟩ : BufTy).Contents (Elt Ideal)) (b : Fin 32) (q : Fin 10752)
    (h : q.val < 512) : refFlat (F := Ideal) x (ix2 b q) = Cert.Pyramid.flat x (ix2 b q) := by
  unfold refFlat
  refine (concatenate_apply_piece (1 : Fin S32x10752.rank) _ _ (ix2 b q)
    0 (by show (0 : Nat) < 3; omega) S32x512 _ rfl rfl 0 rfl (ix2 b (⟨q.val, h⟩ : Fin 512))
    (fun a => match a with
      | ⟨0, _⟩ => fun _ => rfl
      | ⟨1, _⟩ => fun hne => absurd rfl hne)
    (by show 0 + q.val = q.val; omega)).trans ?_
  rw [piece1_apply]
  unfold Cert.Pyramid.flat Cert.Pyramid.bins
  have hk : q.val / 512 < 1 := by omega
  rw [dif_pos (by exact hk)]
  exact level_congr rfl _ x b rfl rfl (by show q.val = q.val % 512; omega)

/-- Positions from 512 to below 2560 are the 2×2 level's. -/
theorem refFlat_mid (x : (⟨S32x64x64x512, .f32⟩ : BufTy).Contents (Elt Ideal)) (b : Fin 32) (q : Fin 10752)
    (h1 : 512 ≤ q.val) (h2 : q.val < 2560) : refFlat (F := Ideal) x (ix2 b q) = Cert.Pyramid.flat x (ix2 b q) := by
  unfold refFlat
  refine (concatenate_apply_piece (1 : Fin S32x10752.rank) _ _ (ix2 b q)
    1 (by show (1 : Nat) < 3; omega) S32x2048 _ rfl rfl 512 rfl (ix2 b (⟨q.val - 512, by omega⟩ : Fin 2048))
    (fun a => match a with
      | ⟨0, _⟩ => fun _ => rfl
      | ⟨1, _⟩ => fun hne => absurd rfl hne)
    (by show 512 + (q.val - 512) = q.val; omega)).trans ?_
  rw [piece2_apply]
  unfold Cert.Pyramid.flat Cert.Pyramid.bins
  have hk1 : ¬ q.val / 512 < 1 := by omega
  have hk5 : q.val / 512 < 5 := by omega
  rw [dif_neg (by exact hk1), dif_pos (by exact hk5)]
  exact level_congr rfl _ x b (by show (q.val - 512) / 512 % 2 = (q.val / 512 - 1) % 2; omega)
    (by show (q.val - 512) / 1024 = (q.val / 512 - 1) / 2; omega) (by show (q.val - 512) % 512 = q.val % 512; omega)

/-- Positions from 2560 on are the 4×4 level's. -/
theorem refFlat_hi (x : (⟨S32x64x64x512, .f32⟩ : BufTy).Contents (Elt Ideal)) (b : Fin 32) (q : Fin 10752)
    (h1 : 2560 ≤ q.val) : refFlat (F := Ideal) x (ix2 b q) = Cert.Pyramid.flat x (ix2 b q) := by
  have hq : q.val < 10752 := q.isLt
  unfold refFlat
  refine (concatenate_apply_piece (1 : Fin S32x10752.rank) _ _ (ix2 b q)
    2 (by show (2 : Nat) < 3; omega) S32x8192 _ rfl rfl 2560 rfl (ix2 b (⟨q.val - 2560, by omega⟩ : Fin 8192))
    (fun a => match a with
      | ⟨0, _⟩ => fun _ => rfl
      | ⟨1, _⟩ => fun hne => absurd rfl hne)
    (by show 2560 + (q.val - 2560) = q.val; omega)).trans ?_
  rw [piece4_apply]
  unfold Cert.Pyramid.flat Cert.Pyramid.bins
  have hk1 : ¬ q.val / 512 < 1 := by omega
  have hk5 : ¬ q.val / 512 < 5 := by omega
  rw [dif_neg (by exact hk1), dif_neg (by exact hk5)]
  exact level_congr rfl _ x b (by show (q.val - 2560) / 512 % 4 = (q.val / 512 - 5) % 4; omega)
    (by show (q.val - 2560) / 2048 = (q.val / 512 - 5) / 4; omega) (by show (q.val - 2560) % 512 = q.val % 512; omega)

theorem refFlat_eq (x : (⟨S32x64x64x512, .f32⟩ : BufTy).Contents (Elt Ideal)) :
    refFlat (F := Ideal) x = Cert.Pyramid.flat x := by
  funext j
  rw [eq_ix2 j]
  by_cases h1 : (j 1).val < 512
  · exact refFlat_lo x (j 0) (j 1) h1
  · by_cases h2 : (j 1).val < 2560
    · exact refFlat_mid x (j 0) (j 1) (by omega) h2
    · exact refFlat_hi x (j 0) (j 1) (by omega)

/-- The reference's run with its result named as the flat array of bins of its argument. -/
theorem run_flat (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v24) = Cert.Pyramid.flat (m ((c.tc : Thread nD τ).loc main_arg0))
      ∧ r.2.mem ((c.tc : Thread nD τ).loc main_arg0) = m ((c.tc : Thread nD τ).loc main_arg0) :=
  (θ_run defs _ _).mono
    (fun _ h c => ⟨(h c).1.trans (refFlat_eq (m ((c.tc : Thread nD τ).loc main_arg0))), (h c).2⟩)
    (Cert.ReferenceIdeal.RunCopy.run (F := Ideal) m ρ)

end Cert.ReferenceIdeal.Pyramid

end
-- ==== Proof.lean ====
/-
  Spatial pyramid pooling (maximum + mean over 1×1, 2×2 and 4×4 bins of a 64×64 map): the kernel computes each bin's
  maximum and sum in two steps (over the window's rows, then over its columns) and scales the sum by the reciprocal of
  the window's size, an exact power of two; the reference reduces the 6-D reshape over both window axes at once and
  divides.  On the extended reals a maximum and a sum do not depend on the grouping, and dividing by 2^k is multiplying
  by 2^-k, so both programs end at the same flat array of bins (`Cert.Pyramid.flat`) of the argument.
-/
import proofs.«109706_j40166534152820_1_alg».proof.Defs
import proofs.«109706_j40166534152820_1_alg».proof.Proof.Gen.Kernel
import proofs.«109706_j40166534152820_1_alg».proof.Proof.Gen.Kernel.Frame
import proofs.«109706_j40166534152820_1_alg».proof.Proof.Gen.KernelIdeal
import proofs.«109706_j40166534152820_1_alg».proof.Proof.Gen.KernelIdeal.Frame
import proofs.«109706_j40166534152820_1_alg».proof.Proof.Gen.ReferenceIdeal
import proofs.«109706_j40166534152820_1_alg».proof.Proof.Gen.Pre_finite_inputs
import proofs.«109706_j40166534152820_1_alg».proof.Proof.KernelFlat
import proofs.«109706_j40166534152820_1_alg».proof.Proof.RefFlat
import Idealize.ShloMosaic.Adequacy
import Idealize.ShloMosaic.Init

noncomputable section

namespace Cert.Proof

open Idealize.ShloMosaic Idealize.SL.Sem

theorem frame_kernel : @Cert.frame_Kernel Cert.Kernel.Gen.facts Cert.Pre_finite_inputs.Gen.facts :=
  fun m ρ _ => Cert.Kernel.Gen.frame m ρ

theorem frame_kernelIdeal : @Cert.frame_KernelIdeal Cert.KernelIdeal.Gen.facts Cert.Pre_finite_inputs.Gen.facts :=
  fun m ρ _ => Cert.KernelIdeal.Gen.frame m ρ

/-- The reference's frame is its run with the result forgotten. -/
theorem frame_reference : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Pyramid.run_flat m ρ)

/-- Both runs end at the flat array of bins of the argument; the arguments agree. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨fun c => Cert.Pyramid.flat (m ((c.tc : Thread Cert.KernelIdeal.nD Cert.KernelIdeal.τ).loc Cert.KernelIdeal.main_arg0)),
    Cert.KernelIdeal.Pyramid.run_flat m ρ, ?_⟩
  refine (θ_run Cert.ReferenceIdeal.defs _ _).mono (fun _ h c => ⟨(h c).1.trans ?_, (h c).2⟩)
    (Cert.ReferenceIdeal.Pyramid.run_flat m' ρ')
  rw [hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
